-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S262144x3 : Shape := ⟨2, ![262144, 3]⟩
abbrev S100x512 : Shape := ⟨2, ![100, 512]⟩
abbrev S3x512 : Shape := ⟨2, ![3, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S100x512 : S_.BroadcastsInDim S100x512 (![] : Fin 0 → Fin S100x512.rank)
  reducesTo_S100x512_S_d0_1 : S100x512.ReducesTo [0, 1] S_
  bcast_S_S3x512 : S_.BroadcastsInDim S3x512 (![] : Fin 0 → Fin S3x512.rank)
  reducesTo_S3x512_S_d0_1 : S3x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S262144 : S_.BroadcastsInDim S262144 (![] : Fin 0 → Fin S262144.rank)
  reducesTo_S262144_S_d0 : S262144.ReducesTo [0] S_

variable [Facts]

def fn_part2 {F : FTy → Type} [FloatOps F] (main_arg0 : IVec S262144 32) (main_v33 : IVec S_ 1) : IVec S_ 1 :=
  let main_c_12 : IVec S_ 32 := constantI S_ 32 0#32
  let main_v34 : IVec S262144 32 := broadcastInDim S262144 ![] bcast_S_S262144 main_c_12
  let main_v35 : IVec S262144 1 := cmpi .sge main_arg0 main_v34
  let main_c_13 : IVec S_ 32 := constantI S_ 32 100#32
  let main_v36 : IVec S262144 32 := broadcastInDim S262144 ![] bcast_S_S262144 main_c_13
  let main_v37 : IVec S262144 1 := cmpi .slt main_arg0 main_v36
  let main_v38 : IVec S262144 1 := andi main_v35 main_v37
  let main_c_14 : IVec S_ 1 := constantI S_ 1 1#1
  let main_v39 : IVec S_ 1 := (fun x v => Host.reduce IntOp.andi x v reducesTo_S262144_S_d0 h_S_) main_v38 main_c_14
  let main_v40 : IVec S_ 1 := andi main_v33 main_v39
  main_v40

def fn_part1 {F : FTy → Type} [FloatOps F] (main_arg0 : IVec S262144 32) (main_arg6 : FVec F S512 .f32) (main_arg7 : FVec F S512x1 .f32) (main_arg8 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1 .f32 := Host.absf main_arg7
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_v33

def fn {F : FTy → Type} [FloatOps F] (main_arg0 : IVec S262144 32) (main_arg1 : FVec F S262144x3 .f32) (main_arg2 : IVec S262144 32) (main_arg3 : FVec F S100x512 .f32) (main_arg4 : FVec F S3x512 .f32) (main_arg5 : FVec F S512x512 .f32) (main_arg6 : FVec F S512 .f32) (main_arg7 : FVec F S512x1 .f32) (main_arg8 : FVec F S1 .f32) : IVec S_ 1 :=
  let main_v0 : FVec F S262144x3 .f32 := Host.absf main_arg1
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S100x512 .f32 := Host.absf main_arg3
  let main_cst_0 : FVec F S_ .f32 := constant S_ .f32 0x7F800000#32
  let main_v5 : FVec F S100x512 .f32 := broadcastInDim S100x512 ![] bcast_S_S100x512 main_cst_0
  let main_v6 : IVec S100x512 1 := cmpf .olt main_v4 main_v5
  let main_c_1 : IVec S_ 1 := constantI S_ 1 1#1
  let main_v7 : IVec S_ 1 := (fun x v => Host.reduce IntOp.andi x v reducesTo_S100x512_S_d0_1 h_S_) main_v6 main_c_1
  let main_v8 : IVec S_ 1 := andi main_v3 main_v7
  let main_v9 : FVec F S3x512 .f32 := Host.absf main_arg4
  let main_cst_2 : FVec F S_ .f32 := constant S_ .f32 0x7F800000#32
  let main_v10 : FVec F S3x512 .f32 := broadcastInDim S3x512 ![] bcast_S_S3x512 main_cst_2
  let main_v11 : IVec S3x512 1 := cmpf .olt main_v9 main_v10
  let main_c_3 : IVec S_ 1 := constantI S_ 1 1#1
  let main_v12 : IVec S_ 1 := (fun x v => Host.reduce IntOp.andi x v reducesTo_S3x512_S_d0_1 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg0 main_arg6 main_arg7 main_arg8 main_v13 main_v16
-- ==== Kernel.lean ====
abbrev S262144 : Shape := ⟨1, ![262144]⟩
abbrev S262144x3 : Shape := ⟨2, ![262144, 3]⟩
abbrev S100x512 : Shape := ⟨2, ![100, 512]⟩
abbrev S3x512 : Shape := ⟨2, ![3, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S262144x1 : Shape := ⟨2, ![262144, 1]⟩
abbrev S262144x512 : Shape := ⟨2, ![262144, 512]⟩
abbrev S2048x1 : Shape := ⟨2, ![2048, 1]⟩
abbrev S2048x3 : Shape := ⟨2, ![2048, 3]⟩
abbrev S2048x512 : Shape := ⟨2, ![2048, 512]⟩
abbrev S2048x100 : Shape := ⟨2, ![2048, 100]⟩
abbrev S4096 : Shape := ⟨1, ![4096]⟩
abbrev S4096x512 : Shape := ⟨2, ![4096, 512]⟩
abbrev S1x512 : Shape := ⟨2, ![1, 512]⟩
abbrev S1x1 : Shape := ⟨2, ![1, 1]⟩
abbrev S4096x1 : Shape := ⟨2, ![4096, 1]⟩

abbrev nBuf : Space → Nat
  | .hbm => 37
  | .vmem => 18
  | .smem => 0
  | _ => 0

abbrev bufTy : (tb : Table) → Fin (tcTables nBuf tb) → BufTy
  | .hbm, ⟨0, _⟩ => ⟨S262144, .i32⟩
  | .hbm, ⟨1, _⟩ => ⟨S262144x3, .f32⟩
  | .hbm, ⟨2, _⟩ => ⟨S262144, .i32⟩
  | .hbm, ⟨3, _⟩ => ⟨S100x512, .f32⟩
  | .hbm, ⟨4, _⟩ => ⟨S3x512, .f32⟩
  | .hbm, ⟨5, _⟩ => ⟨S512x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S100x512, .bf16⟩
  | .hbm, ⟨18, _⟩ => ⟨S3x512, .bf16⟩
  | .hbm, ⟨19, _⟩ => ⟨S262144x1, .i32⟩
  | .hbm, ⟨20, _⟩ => ⟨S262144x512, .f32⟩
  | .hbm, ⟨21, _⟩ => ⟨S_, .f32⟩
  | .hbm, ⟨22, _⟩ => ⟨S262144, .f32⟩
  | .hbm, ⟨23, _⟩ => ⟨S_, .f32⟩
  | .hbm, ⟨24, _⟩ => ⟨S4096, .f32⟩
  | .hbm, ⟨25, _⟩ => ⟨S262144x1, .i32⟩
  | .hbm, ⟨26, _⟩ => ⟨S4096, .f32⟩
  | .hbm, ⟨27, _⟩ => ⟨S_, .f32⟩
  | .hbm, ⟨28, _⟩ => ⟨S4096x512, .f32⟩
  | .hbm, ⟨29, _⟩ => ⟨S262144x1, .i32⟩
  | .hbm, ⟨30, _⟩ => ⟨S4096x512, .f32⟩
  | .hbm, ⟨31, _⟩ => ⟨S512x512, .bf16⟩
  | .hbm, ⟨32, _⟩ => ⟨S512x1, .bf16⟩
  | .hbm, ⟨33, _⟩ => ⟨S1x512, .f32⟩
  | .hbm, ⟨34, _⟩ => ⟨S1x1, .f32⟩
  | .hbm, ⟨35, _⟩ => ⟨S4096x1, .f32⟩
  | .hbm, ⟨36, _⟩ => ⟨S4096x1, .f32⟩
  | .local _ .vmem, ⟨0, _⟩ => ⟨S2048x1, .i32⟩
  | .local _ .vmem, ⟨1, _⟩ => ⟨S2048x1, .i32⟩
  | .local _ .vmem, ⟨2, _⟩ => ⟨S2048x3, .f32⟩
  | .local _ .vmem, ⟨3, _⟩ => ⟨S2048x3, .f32⟩
  | .local _ .vmem, ⟨4, _⟩ => ⟨S100x512, .bf16⟩
  | .local _ .vmem, ⟨5, _⟩ => ⟨S3x512, .bf16⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S2048x1, .f32⟩
  | .local _ .vmem, ⟨11, _⟩ => ⟨S2048x1, .f32⟩
  | .local _ .vmem, ⟨12, _⟩ => ⟨S512x512, .bf16⟩
  | .local _ .vmem, ⟨13, _⟩ => ⟨S1x512, .f32⟩
  | .local _ .vmem, ⟨14, _⟩ => ⟨S512x1, .bf16⟩
  | .local _ .vmem, ⟨15, _⟩ => ⟨S1x1, .f32⟩
  | .local _ .vmem, ⟨16, _⟩ => ⟨S2048x1, .f32⟩
  | .local _ .vmem, ⟨17, _⟩ => ⟨S2048x1, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x1 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S262144 : S_.BroadcastsInDim S262144 (![] : Fin 0 → Fin S262144.rank)
  bitsLt_bf16_f32 : FTy.bits .bf16 < FTy.bits .f32
  shapeCasts_S262144_S262144x1 : S262144.ShapeCasts S262144x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x100_d1_w32 : S2048x100.Iotas .tc 32 [1]
  broadcasts_S2048x1_S2048x100 : S2048x1.Broadcasts S2048x100
  natLt_1_32 : 1 < 32
  inb_S100x512_S100x512_0_0 : ∀ a, (![0, 0] : Fin 2 → Nat) a + S100x512.size a ≤ S100x512.size a
  h_S100x512 : 0 < S100x512.numel
  shapeCasts_S100x512_S100x512 : S100x512.ShapeCasts S100x512
  inb_S2048x3_S2048x3_0_0 : ∀ a, (![0, 0] : Fin 2 → Nat) a + S2048x3.size a ≤ S2048x3.size a
  h_S2048x3 : 0 < S2048x3.numel
  inb_S3x512_S3x512_0_0 : ∀ a, (![0, 0] : Fin 2 → Nat) a + S3x512.size a ≤ S3x512.size a
  h_S3x512 : 0 < S3x512.numel
  shapeCasts_S3x512_S3x512 : S3x512.ShapeCasts S3x512
  inb_S2048x512_S2048x512_0_0 : ∀ a, (![0, 0] : Fin 2 → Nat) a + S2048x512.size a ≤ S2048x512.size a
  h_S2048x512 : 0 < S2048x512.numel
  bcast_S_S4096 : S_.BroadcastsInDim S4096 (![] : Fin 0 → Fin S4096.rank)
  bcast_S262144_S262144x1_0 : S262144.BroadcastsInDim S262144x1 (![0] : Fin 1 → Fin S262144x1.rank)
  bcast_S_S4096x512 : S_.BroadcastsInDim S4096x512 (![] : Fin 0 → Fin S4096x512.rank)
  shapeCasts_S512_S1x512 : S512.ShapeCasts S1x512
  shapeCasts_S1_S1x1 : S1.ShapeCasts S1x1
  shapeCasts_S4096_S4096x1 : S4096.ShapeCasts S4096x1
  shapeCasts_S2048x512_S2048x512 : S2048x512.ShapeCasts S2048x512
  broadcasts_S2048x1_S2048x512 : S2048x1.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  dot_S2048x100_S100x512_S2048x512_1_0_0_1_n_n_wf : DotDims.WF S2048x100 S100x512 S2048x512 [1] [0] [0] [1] [] []
  dot_S2048x3_S3x512_S2048x512_1_0_0_1_n_n_wf : DotDims.WF S2048x3 S3x512 S2048x512 [1] [0] [0] [1] [] []
  scatter_S4096_S262144x1_S262144_n_0_0_1_wf : ScatterDims.WF S4096 S262144x1 S262144 [] [0] [0] 1
  scatter_S4096x512_S262144x1_S262144x512_1_0_0_1_wf : ScatterDims.WF S4096x512 S262144x1 S262144x512 [1] [0] [0] 1
  dot_S2048x512_S512x512_S2048x512_1_0_0_1_n_n_wf : DotDims.WF S2048x512 S512x512 S2048x512 [1] [0] [0] [1] [] []
  dot_S2048x512_S512x1_S2048x1_1_0_0_1_n_n_wf : DotDims.WF S2048x512 S512x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S262144x1.size a
  hwx0_0 : ∀ i : grid0.Coords, EltTy.bits .i32 = 32 ∨ (Rect.block (s := S262144x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S262144x3.size a
  hwx0_1 : ∀ i : grid0.Coords, EltTy.bits .f32 = 32 ∨ (Rect.block (s := S262144x3) S2048x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x512.size a ≤ S100x512.size a
  hwx0_2 : ∀ i : grid0.Coords, EltTy.bits .bf16 = 32 ∨ (Rect.block (s := S100x512) S100x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x512.size a ≤ S3x512.size a
  hwx0_3 : ∀ i : grid0.Coords, EltTy.bits .bf16 = 32 ∨ (Rect.block (s := S3x512) S3x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S262144x512.size a
  hwx0_4 : ∀ i : grid0.Coords, EltTy.bits .f32 = 32 ∨ (Rect.block (s := S262144x512) S2048x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S4096x512.size a
  hwx1_0 : ∀ i : grid1.Coords, EltTy.bits .f32 = 32 ∨ (Rect.block (s := S4096x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S4096x1.size a
  hwx1_1 : ∀ i : grid1.Coords, EltTy.bits .f32 = 32 ∨ (Rect.block (s := S4096x1) S2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S512x1.size a
  hwx1_4 : ∀ i : grid1.Coords, EltTy.bits .bf16 = 32 ∨ (Rect.block (s := S512x1) S512x1.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x1.size a ≤ S4096x1.size a
  hwx1_6 : ∀ i : grid1.Coords, EltTy.bits .f32 = 32 ∨ (Rect.block (s := S4096x1) S2048x1.size (cc1_transform_6 i) (hinb1_6 i)).WholeWords (EltTy.packing .f32)

variable [Facts₀]

def dot_S2048x100_S100x512_S2048x512_1_0_0_1_n_n : DotDims S2048x100 S100x512 S2048x512 where
  lhsContracting := [1]
  rhsContracting := [0]
  lhsNonContracting := [0]
  rhsNonContracting := [1]
  lhsBatch := []
  rhsBatch := []
  wf := dot_S2048x100_S100x512_S2048x512_1_0_0_1_n_n_wf
def dot_S2048x3_S3x512_S2048x512_1_0_0_1_n_n : DotDims S2048x3 S3x512 S2048x512 where
  lhsContracting := [1]
  rhsContracting := [0]
  lhsNonContracting := [0]
  rhsNonContracting := [1]
  lhsBatch := []
  rhsBatch := []
  wf := dot_S2048x3_S3x512_S2048x512_1_0_0_1_n_n_wf
def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def scatter_S4096x512_S262144x1_S262144x512_1_0_0_1 : ScatterDims S4096x512 S262144x1 S262144x512 where
  updateWindowDims := [1]
  insertedWindowDims := [0]
  scatterDimsToOperandDims := [0]
  indexVectorDim := 1
  wf := scatter_S4096x512_S262144x1_S262144x512_1_0_0_1_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

abbrev win0_0 : Pipeline.Window sig grid0 :=
  Pipeline.Window.ofSpec (Memref.whole main_v3) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S100x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S3x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S512x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S2048x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S262144 : Shape := ⟨1, ![262144]⟩
abbrev S262144x3 : Shape := ⟨2, ![262144, 3]⟩
abbrev S100x512 : Shape := ⟨2, ![100, 512]⟩
abbrev S3x512 : Shape := ⟨2, ![3, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S262144x1 : Shape := ⟨2, ![262144, 1]⟩
abbrev S262144x512 : Shape := ⟨2, ![262144, 512]⟩
abbrev S4096x512 : Shape := ⟨2, ![4096, 512]⟩
abbrev S4096 : Shape := ⟨1, ![4096]⟩
abbrev S4096x1 : Shape := ⟨2, ![4096, 1]⟩
abbrev S1x512 : Shape := ⟨2, ![1, 512]⟩
abbrev S1x1 : Shape := ⟨2, ![1, 1]⟩

abbrev nBuf : Space → Nat
  | .hbm => 61
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144x3, .f32⟩
  | .hbm, ⟨2, _⟩ => ⟨S262144, .i32⟩
  | .hbm, ⟨3, _⟩ => ⟨S100x512, .f32⟩
  | .hbm, ⟨4, _⟩ => ⟨S3x512, .f32⟩
  | .hbm, ⟨5, _⟩ => ⟨S512x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144x512, .f32⟩
  | .hbm, ⟨18, _⟩ => ⟨S262144x512, .f32⟩
  | .hbm, ⟨19, _⟩ => ⟨S262144x512, .f32⟩
  | .hbm, ⟨20, _⟩ => ⟨S_, .f32⟩
  | .hbm, ⟨21, _⟩ => ⟨S4096x512, .f32⟩
  | .hbm, ⟨22, _⟩ => ⟨S262144x1, .i32⟩
  | .hbm, ⟨23, _⟩ => ⟨S4096x512, .f32⟩
  | .hbm, ⟨24, _⟩ => ⟨S_, .f32⟩
  | .hbm, ⟨25, _⟩ => ⟨S262144, .f32⟩
  | .hbm, ⟨26, _⟩ => ⟨S_, .f32⟩
  | .hbm, ⟨27, _⟩ => ⟨S4096, .f32⟩
  | .hbm, ⟨28, _⟩ => ⟨S262144x1, .i32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S1x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S4096x512, .f32⟩
  | .hbm, ⟨52, _⟩ => ⟨S4096x512, .f32⟩
  | .hbm, ⟨53, _⟩ => ⟨S_, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x1, .f32⟩
  | .hbm, ⟨58, _⟩ => ⟨S1x1, .f32⟩
  | .hbm, ⟨59, _⟩ => ⟨S4096x1, .f32⟩
  | .hbm, ⟨60, _⟩ => ⟨S4096x1, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S4096x512 : S_.BroadcastsInDim S4096x512 (![] : Fin 0 → Fin S4096x512.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  gather_S100x512_S262144x1_S262144x512_1_0_n_n_0_1_1512_wf : GatherDims.WF S100x512 S262144x1 S262144x512 [1] [0] [] [0] [] 1 ![1, 512]
  dot_S262144x3_S3x512_S262144x512_1_0_0_1_n_n_wf : DotDims.WF S262144x3 S3x512 S262144x512 [1] [0] [0] [1] [] []
  scatter_S4096x512_S262144x1_S262144x512_1_0_0_1_wf : ScatterDims.WF S4096x512 S262144x1 S262144x512 [1] [0] [0] 1
  scatter_S4096_S262144x1_S262144_n_0_0_1_wf : ScatterDims.WF S4096 S262144x1 S262144 [] [0] [0] 1
  dot_S4096x512_S512x512_S4096x512_1_0_0_1_n_n_wf : DotDims.WF S4096x512 S512x512 S4096x512 [1] [0] [0] [1] [] []
  dot_S4096x512_S512x1_S4096x1_1_0_0_1_n_n_wf : DotDims.WF S4096x512 S512x1 S4096x1 [1] [0] [0] [1] [] []

variable [Facts₀]

def gather_S100x512_S262144x1_S262144x512_1_0_n_n_0_1_1512 : GatherDims S100x512 S262144x1 S262144x512 where
  offsetDims := [1]
  collapsedSliceDims := [0]
  operandBatchingDims := []
  startIndicesBatchingDims := []
  startIndexMap := [0]
  indexVectorDim := 1
  sliceSizes := ![1, 512]
  wf := gather_S100x512_S262144x1_S262144x512_1_0_n_n_0_1_1512_wf
def dot_S262144x3_S3x512_S262144x512_1_0_0_1_n_n : DotDims S262144x3 S3x512 S262144x512 where
  lhsContracting := [1]
  rhsContracting := [0]
  lhsNonContracting := [0]
  rhsNonContracting := [1]
  lhsBatch := []
  rhsBatch := []
  wf := dot_S262144x3_S3x512_S262144x512_1_0_0_1_n_n_wf
def scatter_S4096x512_S262144x1_S262144x512_1_0_0_1 : ScatterDims S4096x512 S262144x1 S262144x512 where
  updateWindowDims := [1]
  insertedWindowDims := [0]
  scatterDimsToOperandDims := [0]
  indexVectorDim := 1
  wf := scatter_S4096x512_S262144x1_S262144x512_1_0_0_1_wf
def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

class Facts : Prop extends Facts₀ where

variable [Facts]
-- ==== Proof.KernelDots.lean ====
/- The kernel's four matrix products read at one element.  Each `tpu.matmul` contracts the left operand's second
  axis with the right operand's first, into a zero accumulator; at the ideal instance its element `(p, q)` is
  the plain sum `∑ k, l[p, k] · r[k, q]` over the extended reals.  The contraction index set has one axis; the
  sum is re-indexed by that axis' coordinate.
-/
import proofs.«420281_j41360535060872_3_alg».proof.Proof.Gen.KernelIdeal
import Idealize.ShloMosaic.Lib.ValueIdx
import Idealize.ShloMosaic.PureOps.Ideal.Laws

noncomputable section

open scoped BigOperators

namespace Cert.KernelIdeal.Dots

open Cert.KernelIdeal Cert.KernelIdeal.Gen Idealize.ShloMosaic Idealize.ShloMosaic.ValueIdx

/-! ### `S2048x100` by `S100x512` -/

theorem lhs_table_0 (i : S2048x512.Idx) (q : dot_S2048x100_S100x512_S2048x512_1_0_0_1_n_n.contr.Idx) :
    (dot_S2048x100_S100x512_S2048x512_1_0_0_1_n_n.lhsIdx i q 0).val = (i 0).val := by
  unfold DotDims.lhsIdx
  rw [dif_neg (show ¬(0 : Fin S2048x100.rank) ∈ dot_S2048x100_S100x512_S2048x512_1_0_0_1_n_n.lhsBatch by decide), dif_pos (show (0 : Fin S2048x100.rank) ∈ dot_S2048x100_S100x512_S2048x512_1_0_0_1_n_n.lhsNonContracting by decide)]
  rfl
theorem lhs_table_1 (i : S2048x512.Idx) (q : dot_S2048x100_S100x512_S2048x512_1_0_0_1_n_n.contr.Idx) :
    (dot_S2048x100_S100x512_S2048x512_1_0_0_1_n_n.lhsIdx i q 1).val = (q ⟨0, by decide⟩).val :=
  dot_S2048x100_S100x512_S2048x512_1_0_0_1_n_n.lhsIdx_val_of_single rfl i q
theorem rhs_table_0 (i : S2048x512.Idx) (q : dot_S2048x100_S100x512_S2048x512_1_0_0_1_n_n.contr.Idx) :
    (dot_S2048x100_S100x512_S2048x512_1_0_0_1_n_n.rhsIdx i q 0).val = (q ⟨0, by decide⟩).val :=
  dot_S2048x100_S100x512_S2048x512_1_0_0_1_n_n.rhsIdx_val_of_single rfl i q
theorem rhs_table_1 (i : S2048x512.Idx) (q : dot_S2048x100_S100x512_S2048x512_1_0_0_1_n_n.contr.Idx) :
    (dot_S2048x100_S100x512_S2048x512_1_0_0_1_n_n.rhsIdx i q 1).val = (i 1).val := by
  unfold DotDims.rhsIdx
  rw [dif_neg (show ¬(1 : Fin S100x512.rank) ∈ dot_S2048x100_S100x512_S2048x512_1_0_0_1_n_n.rhsBatch by decide), dif_pos (show (1 : Fin S100x512.rank) ∈ dot_S2048x100_S100x512_S2048x512_1_0_0_1_n_n.rhsNonContracting by decide)]
  rfl

/-- Element `(p, q)` of the product is `∑ k, l[p, k] · r[k, q]`. -/
theorem matmul_table_apply {φ₁ φ₂ : FTy} (l : FVec Ideal S2048x100 φ₁) (r : FVec Ideal S100x512 φ₂) (p : Fin 2048) (q : Fin 512) :
    matmul dot_S2048x100_S100x512_S2048x512_1_0_0_1_n_n none l r (constant S2048x512 .f32 0x00000000#32) (ix2 p q)
      = ∑ k : Fin 100, l (ix2 p k) * r (ix2 k q) := by
  show FloatOps.matmul dot_S2048x100_S100x512_S2048x512_1_0_0_1_n_n none l r (constant S2048x512 .f32 0x00000000#32) (ix2 p q) = _
  rw [Ideal.matmul_constant_zero_apply, ← Equiv.sum_comp (ValueIdx.contrEquiv1 dot_S2048x100_S100x512_S2048x512_1_0_0_1_n_n 100 rfl rfl).symm]
  refine Finset.sum_congr rfl fun k _ => ?_
  have hk := ValueIdx.contrEquiv1_symm_val dot_S2048x100_S100x512_S2048x512_1_0_0_1_n_n 100 rfl rfl k
  have el : dot_S2048x100_S100x512_S2048x512_1_0_0_1_n_n.lhsIdx (ix2 p q) ((ValueIdx.contrEquiv1 dot_S2048x100_S100x512_S2048x512_1_0_0_1_n_n 100 rfl rfl).symm k) = ix2 p k := funext fun a => Fin.ext (by
    match a with
    | ⟨0, _⟩ => exact lhs_table_0 _ _
    | ⟨1, _⟩ => exact (lhs_table_1 _ _).trans hk)
  have er : dot_S2048x100_S100x512_S2048x512_1_0_0_1_n_n.rhsIdx (ix2 p q) ((ValueIdx.contrEquiv1 dot_S2048x100_S100x512_S2048x512_1_0_0_1_n_n 100 rfl rfl).symm k) = ix2 k q := funext fun a => Fin.ext (by
    match a with
    | ⟨0, _⟩ => exact (rhs_table_0 _ _).trans hk
    | ⟨1, _⟩ => exact rhs_table_1 _ _)
  rw [el, er]

/-! ### `S2048x3` by `S3x512` -/

theorem lhs_pos_0 (i : S2048x512.Idx) (q : dot_S2048x3_S3x512_S2048x512_1_0_0_1_n_n.contr.Idx) :
    (dot_S2048x3_S3x512_S2048x512_1_0_0_1_n_n.lhsIdx i q 0).val = (i 0).val := by
  unfold DotDims.lhsIdx
  rw [dif_neg (show ¬(0 : Fin S2048x3.rank) ∈ dot_S2048x3_S3x512_S2048x512_1_0_0_1_n_n.lhsBatch by decide), dif_pos (show (0 : Fin S2048x3.rank) ∈ dot_S2048x3_S3x512_S2048x512_1_0_0_1_n_n.lhsNonContracting by decide)]
  rfl
theorem lhs_pos_1 (i : S2048x512.Idx) (q : dot_S2048x3_S3x512_S2048x512_1_0_0_1_n_n.contr.Idx) :
    (dot_S2048x3_S3x512_S2048x512_1_0_0_1_n_n.lhsIdx i q 1).val = (q ⟨0, by decide⟩).val :=
  dot_S2048x3_S3x512_S2048x512_1_0_0_1_n_n.lhsIdx_val_of_single rfl i q
theorem rhs_pos_0 (i : S2048x512.Idx) (q : dot_S2048x3_S3x512_S2048x512_1_0_0_1_n_n.contr.Idx) :
    (dot_S2048x3_S3x512_S2048x512_1_0_0_1_n_n.rhsIdx i q 0).val = (q ⟨0, by decide⟩).val :=
  dot_S2048x3_S3x512_S2048x512_1_0_0_1_n_n.rhsIdx_val_of_single rfl i q
theorem rhs_pos_1 (i : S2048x512.Idx) (q : dot_S2048x3_S3x512_S2048x512_1_0_0_1_n_n.contr.Idx) :
    (dot_S2048x3_S3x512_S2048x512_1_0_0_1_n_n.rhsIdx i q 1).val = (i 1).val := by
  unfold DotDims.rhsIdx
  rw [dif_neg (show ¬(1 : Fin S3x512.rank) ∈ dot_S2048x3_S3x512_S2048x512_1_0_0_1_n_n.rhsBatch by decide), dif_pos (show (1 : Fin S3x512.rank) ∈ dot_S2048x3_S3x512_S2048x512_1_0_0_1_n_n.rhsNonContracting by decide)]
  rfl

/-- Element `(p, q)` of the product is `∑ k, l[p, k] · r[k, q]`. -/
theorem matmul_pos_apply {φ₁ φ₂ : FTy} (l : FVec Ideal S2048x3 φ₁) (r : FVec Ideal S3x512 φ₂) (p : Fin 2048) (q : Fin 512) :
    matmul dot_S2048x3_S3x512_S2048x512_1_0_0_1_n_n none l r (constant S2048x512 .f32 0x00000000#32) (ix2 p q)
      = ∑ k : Fin 3, l (ix2 p k) * r (ix2 k q) := by
  show FloatOps.matmul dot_S2048x3_S3x512_S2048x512_1_0_0_1_n_n none l r (constant S2048x512 .f32 0x00000000#32) (ix2 p q) = _
  rw [Ideal.matmul_constant_zero_apply, ← Equiv.sum_comp (ValueIdx.contrEquiv1 dot_S2048x3_S3x512_S2048x512_1_0_0_1_n_n 3 rfl rfl).symm]
  refine Finset.sum_congr rfl fun k _ => ?_
  have hk := ValueIdx.contrEquiv1_symm_val dot_S2048x3_S3x512_S2048x512_1_0_0_1_n_n 3 rfl rfl k
  have el : dot_S2048x3_S3x512_S2048x512_1_0_0_1_n_n.lhsIdx (ix2 p q) ((ValueIdx.contrEquiv1 dot_S2048x3_S3x512_S2048x512_1_0_0_1_n_n 3 rfl rfl).symm k) = ix2 p k := funext fun a => Fin.ext (by
    match a with
    | ⟨0, _⟩ => exact lhs_pos_0 _ _
    | ⟨1, _⟩ => exact (lhs_pos_1 _ _).trans hk)
  have er : dot_S2048x3_S3x512_S2048x512_1_0_0_1_n_n.rhsIdx (ix2 p q) ((ValueIdx.contrEquiv1 dot_S2048x3_S3x512_S2048x512_1_0_0_1_n_n 3 rfl rfl).symm k) = ix2 k q := funext fun a => Fin.ext (by
    match a with
    | ⟨0, _⟩ => exact (rhs_pos_0 _ _).trans hk
    | ⟨1, _⟩ => exact rhs_pos_1 _ _)
  rw [el, er]

/-! ### `S2048x512` by `S512x512` -/

theorem lhs_hidden_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_hidden_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_hidden_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_hidden_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Element `(p, q)` of the product is `∑ k, l[p, k] · r[k, q]`. -/
theorem matmul_hidden_apply {φ₁ φ₂ : FTy} (l : FVec Ideal S2048x512 φ₁) (r : FVec Ideal S512x512 φ₂) (p : Fin 2048) (q : Fin 512) :
    matmul dot_S2048x512_S512x512_S2048x512_1_0_0_1_n_n none l r (constant S2048x512 .f32 0x00000000#32) (ix2 p q)
      = ∑ k : Fin 512, l (ix2 p k) * r (ix2 k q) := by
  show FloatOps.matmul dot_S2048x512_S512x512_S2048x512_1_0_0_1_n_n none l r (constant S2048x512 .f32 0x00000000#32) (ix2 p q) = _
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 p q) ((ValueIdx.contrEquiv1 dot_S2048x512_S512x512_S2048x512_1_0_0_1_n_n 512 rfl rfl).symm k) = ix2 p k := funext fun a => Fin.ext (by
    match a with
    | ⟨0, _⟩ => exact lhs_hidden_0 _ _
    | ⟨1, _⟩ => exact (lhs_hidden_1 _ _).trans hk)
  have er : dot_S2048x512_S512x512_S2048x512_1_0_0_1_n_n.rhsIdx (ix2 p q) ((ValueIdx.contrEquiv1 dot_S2048x512_S512x512_S2048x512_1_0_0_1_n_n 512 rfl rfl).symm k) = ix2 k q := funext fun a => Fin.ext (by
    match a with
    | ⟨0, _⟩ => exact (rhs_hidden_0 _ _).trans hk
    | ⟨1, _⟩ => exact rhs_hidden_1 _ _)
  rw [el, er]

/-! ### `S2048x512` by `S512x1` -/

theorem lhs_out_0 (i : S2048x1.Idx) (q : dot_S2048x512_S512x1_S2048x1_1_0_0_1_n_n.contr.Idx) :
    (dot_S2048x512_S512x1_S2048x1_1_0_0_1_n_n.lhsIdx i q 0).val = (i 0).val := by
  unfold DotDims.lhsIdx
  rw [dif_neg (show ¬(0 : Fin S2048x512.rank) ∈ dot_S2048x512_S512x1_S2048x1_1_0_0_1_n_n.lhsBatch by decide), dif_pos (show (0 : Fin S2048x512.rank) ∈ dot_S2048x512_S512x1_S2048x1_1_0_0_1_n_n.lhsNonContracting by decide)]
  rfl
theorem lhs_out_1 (i : S2048x1.Idx) (q : dot_S2048x512_S512x1_S2048x1_1_0_0_1_n_n.contr.Idx) :
    (dot_S2048x512_S512x1_S2048x1_1_0_0_1_n_n.lhsIdx i q 1).val = (q ⟨0, by decide⟩).val :=
  dot_S2048x512_S512x1_S2048x1_1_0_0_1_n_n.lhsIdx_val_of_single rfl i q
theorem rhs_out_0 (i : S2048x1.Idx) (q : dot_S2048x512_S512x1_S2048x1_1_0_0_1_n_n.contr.Idx) :
    (dot_S2048x512_S512x1_S2048x1_1_0_0_1_n_n.rhsIdx i q 0).val = (q ⟨0, by decide⟩).val :=
  dot_S2048x512_S512x1_S2048x1_1_0_0_1_n_n.rhsIdx_val_of_single rfl i q
theorem rhs_out_1 (i : S2048x1.Idx) (q : dot_S2048x512_S512x1_S2048x1_1_0_0_1_n_n.contr.Idx) :
    (dot_S2048x512_S512x1_S2048x1_1_0_0_1_n_n.rhsIdx i q 1).val = (i 1).val := by
  unfold DotDims.rhsIdx
  rw [dif_neg (show ¬(1 : Fin S512x1.rank) ∈ dot_S2048x512_S512x1_S2048x1_1_0_0_1_n_n.rhsBatch by decide), dif_pos (show (1 : Fin S512x1.rank) ∈ dot_S2048x512_S512x1_S2048x1_1_0_0_1_n_n.rhsNonContracting by decide)]
  rfl

/-- Element `(p, q)` of the product is `∑ k, l[p, k] · r[k, q]`. -/
theorem matmul_out_apply {φ₁ φ₂ : FTy} (l : FVec Ideal S2048x512 φ₁) (r : FVec Ideal S512x1 φ₂) (p : Fin 2048) (q : Fin 1) :
    matmul dot_S2048x512_S512x1_S2048x1_1_0_0_1_n_n none l r (constant S2048x1 .f32 0x00000000#32) (ix2 p q)
      = ∑ k : Fin 512, l (ix2 p k) * r (ix2 k q) := by
  show FloatOps.matmul dot_S2048x512_S512x1_S2048x1_1_0_0_1_n_n none l r (constant S2048x1 .f32 0x00000000#32) (ix2 p q) = _
  rw [Ideal.matmul_constant_zero_apply, ← Equiv.sum_comp (ValueIdx.contrEquiv1 dot_S2048x512_S512x1_S2048x1_1_0_0_1_n_n 512 rfl rfl).symm]
  refine Finset.sum_congr rfl fun k _ => ?_
  have hk := ValueIdx.contrEquiv1_symm_val dot_S2048x512_S512x1_S2048x1_1_0_0_1_n_n 512 rfl rfl k
  have el : dot_S2048x512_S512x1_S2048x1_1_0_0_1_n_n.lhsIdx (ix2 p q) ((ValueIdx.contrEquiv1 dot_S2048x512_S512x1_S2048x1_1_0_0_1_n_n 512 rfl rfl).symm k) = ix2 p k := funext fun a => Fin.ext (by
    match a with
    | ⟨0, _⟩ => exact lhs_out_0 _ _
    | ⟨1, _⟩ => exact (lhs_out_1 _ _).trans hk)
  have er : dot_S2048x512_S512x1_S2048x1_1_0_0_1_n_n.rhsIdx (ix2 p q) ((ValueIdx.contrEquiv1 dot_S2048x512_S512x1_S2048x1_1_0_0_1_n_n 512 rfl rfl).symm k) = ix2 k q := funext fun a => Fin.ext (by
    match a with
    | ⟨0, _⟩ => exact (rhs_out_0 _ _).trans hk
    | ⟨1, _⟩ => exact rhs_out_1 _ _)
  rw [el, er]

end Cert.KernelIdeal.Dots

end
-- ==== Proof.Spec.lean ====
/-
  The mathematics both programs compute, one graph (one row) at a time, over the extended reals.

  A per-atom feature is a row of the embedding table plus a linear image of the position:
  `feat a p d = E[a, d] + ∑ j, p j · Wp[j, d]`.  Features are summed per graph and divided by `max count 1`; the
  per-graph mean `x` then goes through  Linear → GELU (tanh form) → Linear:
  `energy = (∑ k, gelu ((∑ j, x j · W1[j, k]) + b1 k) · W2 k) + b2`.

  The one-hot product the kernel uses for the table lookup is the lookup itself: `∑ k, [k = a] · E k = E a`,
  with no finiteness needed (zero times anything is zero on the extended reals).
-/
import Idealize.ShloMosaic.PureOps.Ideal
import Idealize.ShloMosaic.Lib.ValueIdx

noncomputable section

open scoped BigOperators

namespace Cert.EnergySpec

open Idealize.ShloMosaic

/-- The four f32 literals of the tanh-form GELU, as both programs print them. -/
abbrev cCube : EReal := Ideal.ofBits .f32 0x3D372713#32
abbrev cScale : EReal := Ideal.ofBits .f32 0x3F4C422A#32
abbrev cOne : EReal := Ideal.ofBits .f32 0x3F800000#32
abbrev cHalf : EReal := Ideal.ofBits .f32 0x3F000000#32

/-- `h · (½ · (1 + tanh (c₂ · (h + c₁ · (h · (h · h))))))`. -/
def gelu (h : EReal) : EReal :=
  h * (cHalf * (cOne + Ideal.tanh (cScale * (h + cCube * (h * (h * h))))))

/-- The cube written the other way round is the same cube. -/
theorem gelu_comm (h : EReal) :
    h * (cHalf * (cOne + Ideal.tanh (cScale * (h + cCube * (h * h * h))))) = gelu h := by
  unfold gelu; rw [mul_comm (h * h) h]

/-- One atom's feature at lane `d`. -/
def feat (E : Fin 100 → Fin 512 → EReal) (Wp : Fin 3 → Fin 512 → EReal) (a : Fin 100) (p : Fin 3 → EReal)
    (d : Fin 512) : EReal :=
  E a d + ∑ j : Fin 3, p j * Wp j d

/-- One graph's energy from its summed features `s` and its atom count `cnt`. -/
def energy (W1 : Fin 512 → Fin 512 → EReal) (b1 : Fin 512 → EReal) (W2 : Fin 512 → EReal) (b2 : EReal)
    (s : Fin 512 → EReal) (cnt : EReal) : EReal :=
  (∑ k : Fin 512, gelu ((∑ j : Fin 512, Ideal.div (s j) (max cnt cOne) * W1 j k) + b1 k) * W2 k) + b2

/-- A one-hot row times a column is the selected entry. -/
theorem onehot_sum {n : Nat} (a : Fin n) (e : Fin n → EReal) (oh : Fin n → EReal)
    (h1 : oh a = 1) (h0 : ∀ k, k ≠ a → oh k = 0) : ∑ k : Fin n, oh k * e k = e a := by
  rw [Finset.sum_eq_single a (fun k _ hk => by rw [h0 k hk, zero_mul]) (fun h => absurd (Finset.mem_univ a) h), h1, one_mul]

end Cert.EnergySpec

end
-- ==== Proof.KernelPayload.lean ====
/-
  What each kernel body computes, read at one element of its output block.

  Region 0 (the per-atom features).  Row `p` of the block holds the atom's index word `w`; the body compares it
  with the lane number, widens the comparison to 0 / 1, and multiplies that one-hot row into the table: if
  `w` is the word of `a < 100` the product's element `(p, d)` is the table's entry `(a, d)`.  The position's
  three coordinates times the position weights are added.

  Region 1 (one graph per row).  Row `p` is divided by `max count 1`, multiplied into the first weight matrix, shifted
  by the first bias, passed through the tanh-form GELU, multiplied into the output column and shifted by the last bias.
-/
import proofs.«420281_j41360535060872_3_alg».proof.Proof.Gen.KernelIdeal.Skeleton
import proofs.«420281_j41360535060872_3_alg».proof.Proof.KernelDots
import proofs.«420281_j41360535060872_3_alg».proof.Proof.Spec
import Idealize.ShloMosaic.Lib.Pipeline.Value

noncomputable section

open scoped BigOperators

namespace Cert.KernelIdeal.Payload

open Cert.KernelIdeal Cert.KernelIdeal.Gen Cert.KernelIdeal.Dots Cert.EnergySpec
open Idealize.ShloMosaic Idealize.ShloMosaic.ValueIdx

/-- The one-hot entry: the atom's word against lane `k`, widened and converted, is `1` at the atom's own lane … -/
theorem onehot_self (a : Fin 100) :
    ((((IntOp.cmpi .eq (BitVec.ofNat 32 a.val) (BitVec.ofNat 32 a.val)).setWidth 32).toInt : ℝ) : EReal) = 1 := by
  have : IntOp.cmpi .eq (BitVec.ofNat 32 a.val) (BitVec.ofNat 32 a.val) = 1#1 := by
    simp [IntOp.cmpi]
  rw [this]; norm_num

/-- … and `0` at every other lane. -/
theorem onehot_ne (a k : Fin 100) (h : k ≠ a) :
    ((((IntOp.cmpi .eq (BitVec.ofNat 32 a.val) (BitVec.ofNat 32 k.val)).setWidth 32).toInt : ℝ) : EReal) = 0 := by
  have hne : BitVec.ofNat 32 a.val ≠ BitVec.ofNat 32 k.val := by
    intro e
    have := congrArg BitVec.toNat e
    simp only [BitVec.toNat_ofNat] at this
    have ha := a.isLt; have hk := k.isLt
    rw [Nat.mod_eq_of_lt (by omega), Nat.mod_eq_of_lt (by omega)] at this
    exact h (Fin.ext this.symm)
  have hb : (BitVec.ofNat 32 a.val == BitVec.ofNat 32 k.val) = false := by simpa using hne
  have : IntOp.cmpi .eq (BitVec.ofNat 32 a.val) (BitVec.ofNat 32 k.val) = 0#1 := by
    simp [IntOp.cmpi, hb]
  rw [this]; norm_num

/-- The one-hot row at lane `k`: the row's index word compared with the lane number, widened and converted. -/
theorem onehot_at (v0 : Vec Ideal S2048x1 .i32) (p : Fin 2048) (k : Fin 100) :
    (truncf .bf16 (sitofp (F := Ideal) .f32 (extui 32 (cmpi .eq (broadcastTo S2048x100 v0 broadcasts_S2048x1_S2048x100)
      (iota .tc S2048x100 32 [1] iota_S2048x100_d1_w32)) natLt_1_32)) bitsLt_bf16_f32 : FVec Ideal S2048x100 .bf16) (ix2 p k)
      = ((((IntOp.cmpi .eq (v0 (ix2 p (0 : Fin 1))) (BitVec.ofNat 32 k.val)).setWidth 32).toInt : ℝ) : EReal) := by
  have hb : broadcastTo S2048x100 v0 broadcasts_S2048x1_S2048x100 (ix2 p k) = v0 (ix2 p (0 : Fin 1)) :=
    broadcastTo_apply v0 _ (ix2 p k) (ix2 p (0 : Fin 1)) (fun a => by
      match a with
      | ⟨0, _⟩ => show p.val = if (2048 : Nat) = 1 then 0 else p.val; rw [if_neg (by decide)]
      | ⟨1, _⟩ => show 0 = if (1 : Nat) = 1 then 0 else k.val; rw [if_pos rfl])
  have hi : iota .tc S2048x100 32 [1] iota_S2048x100_d1_w32 (ix2 p k) = BitVec.ofNat 32 k.val :=
    iota_single_apply .tc S2048x100 32 1 _ (ix2 p k)
  show ((((IntOp.cmpi .eq (broadcastTo S2048x100 v0 broadcasts_S2048x1_S2048x100 (ix2 p k))
    (iota .tc S2048x100 32 [1] iota_S2048x100_d1_w32 (ix2 p k))).setWidth 32).toInt : ℝ) : EReal) = _
  rw [hb, hi]

/-- Region 0's payload at `(p, d)`, for a row whose index word is that of `a`. -/
theorem enc_apply (v0 : Vec Ideal S2048x1 .i32) (v8 : Vec Ideal S100x512 .bf16) (v11 : Vec Ideal S2048x3 .f32)
    (v13 : Vec Ideal S3x512 .bf16) (p : Fin 2048) (d : Fin 512) (a : Fin 100)
    (ha : v0 (ix2 p (0 : Fin 1)) = BitVec.ofNat 32 a.val) :
    k0_pay1 v0 v8 v11 v13 (ix2 p d)
      = feat (fun k d => v8 (ix2 k d)) (fun j d => v13 (ix2 j d)) a (fun j => v11 (ix2 p j)) d := by
  unfold k0_pay1 feat
  simp only [shapeCast_self]
  rw [addf_apply, matmul_table_apply, matmul_pos_apply]
  congr 1
  refine onehot_sum a _ _ ?_ ?_
  · rw [onehot_at, ha]; exact onehot_self a
  · intro k hk; rw [onehot_at, ha]; exact onehot_ne a k hk

/-- Region 1's payload at `(p, q)`: the energy of the graph in row `p`. -/
theorem mlp_apply (x1 : Vec Ideal S2048x1 .f32) (x0 : Vec Ideal S2048x512 .f32) (x2 : Vec Ideal S512x512 .bf16)
    (x3 : Vec Ideal S1x512 .f32) (x4 : Vec Ideal S512x1 .bf16) (x5 : Vec Ideal S1x1 .f32) (p : Fin 2048) (q : Fin 1) :
    k1_pay1 x1 x0 x2 x3 x4 x5 (ix2 p q)
      = energy (fun j k => x2 (ix2 j k)) (fun k => x3 (ix2 (0 : Fin 1) k)) (fun k => x4 (ix2 k q)) (x5 (ix2 (0 : Fin 1) (0 : Fin 1)))
          (fun j => x0 (ix2 p j)) (x1 (ix2 p (0 : Fin 1))) := by
  unfold k1_pay1 energy
  simp only [shapeCast_self]
  -- the hidden layer's pre-activation, which the body's GELU reads six times
  generalize hH : addf (matmul dot_S2048x512_S512x512_S2048x512_1_0_0_1_n_n none
      (truncf .bf16 (divf x0 (broadcastTo S2048x512 (maximumf x1 (broadcast S2048x1 (FloatOps.ofBits (F := Ideal) .f32 0x3F800000#32)))
        broadcasts_S2048x1_S2048x512)) bitsLt_bf16_f32) x2 (constant S2048x512 .f32 0x00000000#32))
      (broadcastTo S2048x512 x3 broadcasts_S1x512_S2048x512) = H
  rw [addf_apply, matmul_out_apply]
  have hb2 : broadcastTo S2048x1 x5 broadcasts_S1x1_S2048x1 (ix2 p q) = x5 (ix2 (0 : Fin 1) (0 : Fin 1)) :=
    broadcastTo_apply x5 _ (ix2 p q) (ix2 (0 : Fin 1) (0 : Fin 1)) (fun a => by
      match a with
      | ⟨0, _⟩ => show 0 = if (1 : Nat) = 1 then 0 else p.val; rw [if_pos rfl]
      | ⟨1, _⟩ => show 0 = if (1 : Nat) = 1 then 0 else q.val; rw [if_pos rfl])
  rw [hb2]
  congr 1
  refine Finset.sum_congr rfl fun k _ => ?_
  congr 1
  show gelu (H (ix2 p k)) = _
  congr 1
  rw [← hH, addf_apply, matmul_hidden_apply]
  have hb1 : broadcastTo S2048x512 x3 broadcasts_S1x512_S2048x512 (ix2 p k) = x3 (ix2 (0 : Fin 1) k) :=
    broadcastTo_apply x3 _ (ix2 p k) (ix2 (0 : Fin 1) k) (fun a => by
      match a with
      | ⟨0, _⟩ => show 0 = if (1 : Nat) = 1 then 0 else p.val; rw [if_pos rfl]
      | ⟨1, _⟩ => show k.val = if (512 : Nat) = 1 then 0 else k.val; rw [if_neg (by decide)])
  rw [hb1]
  congr 1
  refine Finset.sum_congr rfl fun j _ => ?_
  congr 1
  show Ideal.div (x0 (ix2 p j)) (broadcastTo S2048x512 (maximumf x1 (broadcast S2048x1 (FloatOps.ofBits (F := Ideal) .f32 0x3F800000#32)))
    broadcasts_S2048x1_S2048x512 (ix2 p j)) = _
  rw [broadcastTo_apply (maximumf x1 (broadcast S2048x1 (FloatOps.ofBits (F := Ideal) .f32 0x3F800000#32))) _ (ix2 p j) (ix2 p (0 : Fin 1)) (fun a => by
      match a with
      | ⟨0, _⟩ => show p.val = if (2048 : Nat) = 1 then 0 else p.val; rw [if_neg (by decide)]
      | ⟨1, _⟩ => show 0 = if (1 : Nat) = 1 then 0 else j.val; rw [if_pos rfl])]
  rfl

end Cert.KernelIdeal.Payload

end
-- ==== Proof.AtomRange.lean ====
/-
  What the precondition says of the atomic numbers: every one of them, read signed, lies in `[0, 100)` — an index
  into the 100-row embedding table.  The printed predicate is the conjunction of seven finiteness tests and of
  `all ((0 ≤ z) ∧ (z < 100))`; the last conjunct is read back element by element.

  For such a word `w` the three index treatments agree: the kernel's `min 99 (max 0 w)` is `w`; the reference's
  wrap-around `select (w < 0) (w + 100) w` is `w`; and the gather's clamp of the start index into `[0, 99]` is `w`.
-/
import proofs.«420281_j41360535060872_3_alg».proof.Pre_finite_inputs
import proofs.«420281_j41360535060872_3_alg».proof.Proof.Gen.Pre_finite_inputs
import Idealize.ShloMosaic.Lib.ReduceAll
import Idealize.ShloMosaic.Lib.ValueIdx

noncomputable section

namespace Cert.AtomRange

open Idealize.ShloMosaic Cert.Pre_finite_inputs Cert.Pre_finite_inputs.Gen

/-- A word that, read signed, is a row of the 100-row table. -/
def InTable (w : BitVec 32) : Prop := 0 ≤ w.toInt ∧ w.toInt < 100

instance : Subsingleton S_.Idx := ⟨fun a b => funext fun d => d.elim0⟩

/-- The precondition makes every atomic number a row of the table. -/
theorem inTable_of_pre {F : FTy → Type} [FloatOps F] (a0 : IVec S262144 32) (a1 : FVec F S262144x3 .f32) (a2 : IVec S262144 32)
    (a3 : FVec F S100x512 .f32) (a4 : FVec F S3x512 .f32) (a5 : FVec F S512x512 .f32) (a6 : FVec F S512 .f32)
    (a7 : FVec F S512x1 .f32) (a8 : FVec F S1 .f32)
    (h : fn (F := F) a0 a1 a2 a3 a4 a5 a6 a7 a8 = fun _ => 1#1) (i : S262144.Idx) : InTable (a0 i) := by
  have h0 := congrFun h ValueIdx.ix0
  dsimp only [fn, fn_part1, fn_part2] at h0
  obtain ⟨-, h1⟩ := IntOp.andi_eq_one.1 h0
  have h2 := Host.reduce_andi_all _ _ _ _ _ h1 i
  obtain ⟨hge, hlt⟩ := IntOp.andi_eq_one.1 h2
  have hge' : (0#32 : BitVec 32).toInt ≤ (a0 i).toInt := IntOp.cmpi_sge.1 hge
  have hlt' : (a0 i).toInt < (100#32 : BitVec 32).toInt := IntOp.cmpi_slt.1 hlt
  exact ⟨by simpa using hge', by simpa using hlt'⟩

variable {w : BitVec 32}

/-- The table row a word names: its signed value clamped into `[0, 99]` (the clamp a gather applies to a start index). -/
def rowOf (w : BitVec 32) : Fin 100 := ⟨min w.toInt.toNat 99, by omega⟩

/-- A word in the table's range is nonnegative and small: signed and unsigned readings agree. -/
theorem InTable.toInt_eq (h : InTable w) : w.toInt = w.toNat := by
  obtain ⟨h0, h1⟩ := h
  have := BitVec.toInt_eq_toNat_cond w
  have hw := w.isLt
  split at this <;> omega

theorem InTable.toNat_lt (h : InTable w) : w.toNat < 100 := by
  have := h.toInt_eq; have := h.2; omega

/-- For such a word the clamp does nothing: the row is the word's value … -/
theorem InTable.rowOf_val (h : InTable w) : (rowOf w).val = w.toNat := by
  show min w.toInt.toNat 99 = w.toNat
  have := h.toInt_eq; have := h.toNat_lt; omega

/-- … and the word is the 32-bit word of its row. -/
theorem InTable.eq_ofNat (h : InTable w) : w = BitVec.ofNat 32 (rowOf w).val := by
  rw [h.rowOf_val]; simp

/-- The kernel's `min 99 (max 0 w)`, both signed, is `w`. -/
theorem InTable.clip_eq (h : InTable w) : IntOp.minsi 99#32 (IntOp.maxsi 0#32 w) = w := by
  have e := h.toInt_eq; have l := h.toNat_lt
  have h1 : IntOp.maxsi 0#32 w = w := by
    unfold IntOp.maxsi
    rw [if_neg]
    rw [BitVec.slt_iff_toInt_lt, e]; simp
  rw [h1]
  unfold IntOp.minsi
  rw [if_neg]
  rw [BitVec.slt_iff_toInt_lt, e]; simp; omega

/-- The reference's wrap-around of a negative index leaves `w` alone. -/
theorem InTable.wrap_eq (h : InTable w) : Scalar.select (IntOp.cmpi .slt w 0#32) (IntOp.addi w 100#32) w = w := by
  have e := h.toInt_eq
  have hc : IntOp.cmpi .slt w 0#32 = 0#1 := by
    have : ¬ IntOp.cmpi .slt w 0#32 = 1#1 := by
      rw [IntOp.cmpi_slt, e]; simp
    rcases BitVec.eq_zero_or_eq_one (IntOp.cmpi .slt w 0#32) with h0 | h1
    · exact h0
    · exact absurd h1 this
  rw [hc]
  exact if_neg (by decide)

end Cert.AtomRange

end
-- ==== Proof.KernelArrays.lean ====
/-
  From blocks to arrays.  Each pallas_call writes its output block by block; what grid point `t` writes back is
  block `t` of ONE function of the arrays the region finds, so after the run the output array is that function.

  Region 0: grid point `t` handles atoms `2048 t … 2048 t + 2047`; the table and the position weights are whole
  blocks.  The output array is the per-atom feature array.
  Region 1: grid point `t` handles graphs `2048 t … 2048 t + 2047`; the weights and biases are whole blocks.  The
  output array is the per-graph energy.
-/
import proofs.«420281_j41360535060872_3_alg».proof.Proof.Gen.KernelIdeal.Frame
import proofs.«420281_j41360535060872_3_alg».proof.Proof.KernelPayload
import proofs.«420281_j41360535060872_3_alg».proof.Proof.AtomRange
import Idealize.ShloMosaic.Lib.Pipeline.Value

set_option maxRecDepth 16384

noncomputable section

open scoped BigOperators

namespace Cert.KernelIdeal.Arrays

open Cert.KernelIdeal Cert.KernelIdeal.Gen Cert.KernelIdeal.Payload Cert.EnergySpec Cert.AtomRange
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the feature array -/

/-- The feature of every atom at every lane, from the table, the position weights, the column of index words and the
    positions. -/
def featArr (E : S100x512.Idx → EReal) (Wp : S3x512.Idx → EReal) (z : S262144x1.Idx → BitVec 32)
    (pos : S262144x3.Idx → EReal) : S262144x512.Idx → EReal :=
  fun i => feat (fun k d => E (ix2 k d)) (fun j d => Wp (ix2 j d))
    (rowOf (z (ix2 (⟨(i 0).val, (i 0).isLt⟩ : Fin 262144) (0 : Fin 1))))
    (fun j => pos (ix2 (⟨(i 0).val, (i 0).isLt⟩ : Fin 262144) j)) ⟨(i 1).val, (i 1).isLt⟩

theorem featArr_at (E : S100x512.Idx → EReal) (Wp : S3x512.Idx → EReal) (z : S262144x1.Idx → BitVec 32)
    (pos : S262144x3.Idx → EReal) (i : S262144x512.Idx) (r : Fin 262144) (d : Fin 512)
    (h0 : (i 0).val = r.val) (h1 : (i 1).val = d.val) :
    featArr E Wp z pos i = feat (fun k d => E (ix2 k d)) (fun j d => Wp (ix2 j d)) (rowOf (z (ix2 r (0 : Fin 1))))
      (fun j => pos (ix2 r j)) d := by
  unfold featArr
  have e0 : (⟨(i 0).val, (i 0).isLt⟩ : Fin 262144) = r := Fin.ext h0
  have e1 : (⟨(i 1).val, (i 1).isLt⟩ : Fin 512) = d := Fin.ext h1
  rw [e0, e1]

/-- The printed index maps over the grid: the row windows move with the point, the weight windows stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the index-word block at point `t` is row `2048 t + p` of the column. -/
theorem blk0_0 (c : Dev nD) (t : Fin cfg0.N) (p : Fin 2048) (q : Fin 1) (r : Fin 262144) (hr : r.val = 2048 * t.val + p.val) :
    (iblk0 V c 0 t : Vec Ideal S2048x1 .i32) (ix2 p q) = (V c main_v3 : S262144x1.Idx → BitVec 32) (ix2 r q) := by
  obtain ⟨e0, e1, -⟩ := idx0 t
  unfold iblk0
  rw [View.read_apply]
  show V c main_v3 _ = V c main_v3 _
  congr 1
  funext a
  apply Fin.ext
  match a with
  | ⟨0, _⟩ => show win0_0.index t 0 * 2048 + 1 * p.val = r.val; rw [e0, hr]; omega
  | ⟨1, _⟩ => show win0_0.index t 1 * 1 + 1 * q.val = q.val; rw [e1]; omega

/-- Row `p` of the position block at point `t` is row `2048 t + p` of the positions. -/
theorem blk0_1 (c : Dev nD) (t : Fin cfg0.N) (p : Fin 2048) (j : Fin 3) (r : Fin 262144) (hr : r.val = 2048 * t.val + p.val) :
    (iblk0 V c 1 t : Vec Ideal S2048x3 .f32) (ix2 p j) = (V c main_arg1 : S262144x3.Idx → EReal) (ix2 r j) := by
  obtain ⟨-, -, e0, e1, -⟩ := idx0 t
  unfold iblk0
  rw [View.read_apply]
  show V c main_arg1 _ = V c main_arg1 _
  congr 1
  funext a
  apply Fin.ext
  match a with
  | ⟨0, _⟩ => show win0_1.index t 0 * 2048 + 1 * p.val = r.val; rw [e0, hr]; omega
  | ⟨1, _⟩ => show win0_1.index t 1 * 3 + 1 * j.val = j.val; rw [e1]; omega

/-- The table's block is the whole table at every point … -/
theorem blk0_2 (c : Dev nD) (t : Fin cfg0.N) (k : Fin 100) (d : Fin 512) :
    (iblk0 V c 2 t : Vec Ideal S100x512 .bf16) (ix2 k d) = (V c main_v1 : S100x512.Idx → EReal) (ix2 k d) := by
  obtain ⟨-, -, -, -, e0, e1, -⟩ := idx0 t
  unfold iblk0
  rw [View.read_apply]
  show V c main_v1 _ = V c main_v1 _
  congr 1
  funext a
  apply Fin.ext
  match a with
  | ⟨0, _⟩ => show win0_2.index t 0 * 100 + 1 * k.val = k.val; rw [e0]; omega
  | ⟨1, _⟩ => show win0_2.index t 1 * 512 + 1 * d.val = d.val; rw [e1]; omega

/-- … and so is the position weights'. -/
theorem blk0_3 (c : Dev nD) (t : Fin cfg0.N) (j : Fin 3) (d : Fin 512) :
    (iblk0 V c 3 t : Vec Ideal S3x512 .bf16) (ix2 j d) = (V c main_v2 : S3x512.Idx → EReal) (ix2 j d) := by
  obtain ⟨-, -, -, -, -, -, e0, e1, -⟩ := idx0 t
  unfold iblk0
  rw [View.read_apply]
  show V c main_v2 _ = V c main_v2 _
  congr 1
  funext a
  apply Fin.ext
  match a with
  | ⟨0, _⟩ => show win0_3.index t 0 * 3 + 1 * j.val = j.val; rw [e0]; omega
  | ⟨1, _⟩ => show win0_3.index t 1 * 512 + 1 * d.val = d.val; rw [e1]; omega

/-- What point `t` writes back is block `t` of the feature array, when every index word names a table row. -/
theorem flushed0 (c : Dev nD)
    (hrow : ∀ r : Fin 262144, InTable ((V c main_v3 : S262144x1.Idx → BitVec 32) (ix2 r (0 : Fin 1)))) (t : Fin cfg0.N) :
    (dat0 V c).flushed 4 t = ((cfg0.win 4).blk t).view.read (Elt Ideal)
      (featArr (V c main_v1) (V c main_v2) (V c main_v3) (V c main_arg1)) := by
  show (cfg0.win 4).cut (grid0.coords t) ((dat0 V c).after 4 t) = _
  rw [after0_4]
  unfold out0_4
  rw [View.canon_unit_zero hz]
  simp only [View.ld_unit_zero (S := S2048x1) hz, View.ld_unit_zero (S := S100x512) hz, View.ld_unit_zero (S := S2048x3) hz,
    View.ld_unit_zero (S := S3x512) hz]
  funext y
  obtain ⟨p, d, rfl⟩ : ∃ (p : Fin 2048) (d : Fin 512), y = ix2 p d := ⟨y 0, y 1, eq_ix2 y⟩
  have hN : cfg0.N = 128 := N_0
  have hr : 2048 * t.val + p.val < 262144 := by have := t.isLt; have := p.isLt; omega
  obtain ⟨-, -, -, -, -, -, -, -, e0, e1⟩ := idx0 t
  have h0 := blk0_0 V c t p 0 ⟨2048 * t.val + p.val, hr⟩ rfl
  refine (enc_apply (iblk0 V c 0 t) (iblk0 V c 2 t) (iblk0 V c 1 t) (iblk0 V c 3 t) p d
    (rowOf ((V c main_v3 : S262144x1.Idx → BitVec 32) (ix2 ⟨2048 * t.val + p.val, hr⟩ (0 : Fin 1))))
    (h0.trans (hrow _).eq_ofNat)).trans ?_
  rw [View.read_apply]
  rw [featArr_at _ _ _ _ _ ⟨2048 * t.val + p.val, hr⟩ d
    (by show win0_4.index t 0 * 2048 + 1 * p.val = 2048 * t.val + p.val; rw [e0]; omega)
    (by show win0_4.index t 1 * 512 + 1 * d.val = d.val; rw [e1]; omega)]
  have hE : (fun (k : Fin 100) (d : Fin 512) => (iblk0 V c 2 t : Vec Ideal S100x512 .bf16) (ix2 k d))
      = fun k d => (V c main_v1 : S100x512.Idx → EReal) (ix2 k d) := funext fun k => funext fun d => blk0_2 V c t k d
  have hW : (fun (j : Fin 3) (d : Fin 512) => (iblk0 V c 3 t : Vec Ideal S3x512 .bf16) (ix2 j d))
      = fun j d => (V c main_v2 : S3x512.Idx → EReal) (ix2 j d) := funext fun j => funext fun d => blk0_3 V c t j d
  have hP : (fun (j : Fin 3) => (iblk0 V c 1 t : Vec Ideal S2048x3 .f32) (ix2 p j))
      = fun j => (V c main_arg1 : S262144x3.Idx → EReal) (ix2 ⟨2048 * t.val + p.val, hr⟩ j) :=
    funext fun j => blk0_1 V c t p j ⟨2048 * t.val + p.val, hr⟩ rfl
  rw [hE, hW, hP]
  rfl

/-- An index of the feature array is in point `t`'s block iff each coordinate is in the block's range. -/
theorem mem_blk0 (t : Fin cfg0.N) (i : S262144x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v4).slice (win0_4.rect t)).set ↔ _
  rw [View.set_slice_whole, Rect.mem_set_unit]
  exact Iff.rfl

/-- Atom `r` is in the block of point `r / 2048`. -/
theorem cover0 (i : S262144x512.Idx) :
    ∃ t : Fin cfg0.N, (cfg0.win 4).flush t = true ∧ i ∈ ((cfg0.win 4).blk t).view.set := by
  have hN : cfg0.N = 128 := N_0
  have hi0 : (i 0).val < 262144 := idx2_lt0 i
  have hi1 : (i 1).val < 512 := idx2_lt1 i
  have ht : (i 0).val / 2048 < cfg0.N := by rw [hN]; omega
  obtain ⟨-, -, -, -, -, -, -, -, e0, e1⟩ := idx0 ⟨(i 0).val / 2048, ht⟩
  refine ⟨⟨(i 0).val / 2048, ht⟩, flush0_4 _, ?_⟩
  rw [mem_blk0]
  intro a
  match a with
  | ⟨0, _⟩ =>
    show win0_4.index ⟨(i 0).val / 2048, ht⟩ 0 * 2048 ≤ (i 0).val ∧ (i 0).val < win0_4.index ⟨(i 0).val / 2048, ht⟩ 0 * 2048 + 2048
    rw [e0]; show (i 0).val / 2048 * 2048 ≤ (i 0).val ∧ (i 0).val < (i 0).val / 2048 * 2048 + 2048; omega
  | ⟨1, _⟩ =>
    show win0_4.index ⟨(i 0).val / 2048, ht⟩ 1 * 512 ≤ (i 1).val ∧ (i 1).val < win0_4.index ⟨(i 0).val / 2048, ht⟩ 1 * 512 + 512
    rw [e1]; omega

/-- REGION 0's OUTPUT ARRAY after the run is the feature array of what the region finds. -/
theorem final0 (c : Dev nD)
    (hrow : ∀ r : Fin 262144, InTable ((V c main_v3 : S262144x1.Idx → BitVec 32) (ix2 r (0 : Fin 1)))) :
    (dat0 V c).arrAt 4 cfg0.N = featArr (V c main_v1) (V c main_v2) (V c main_v3) (V c main_arg1) :=
  (dat0 V c).arrAt_eq_of_cover 4 _ (fun t _ => flushed0 V c hrow t) cover0

/-! ## Region 1: the energy array -/

/-- Every graph's energy, from the two weight matrices, the two biases (kept as one-row arrays), the summed features
    and the column of atom counts. -/
def energyArr (W1 : S512x512.Idx → EReal) (B1 : S1x512.Idx → EReal) (W2 : S512x1.Idx → EReal) (B2 : S1x1.Idx → EReal)
    (S : S4096x512.Idx → EReal) (C : S4096x1.Idx → EReal) : S4096x1.Idx → EReal :=
  fun i => energy (fun j k => W1 (ix2 j k)) (fun k => B1 (ix2 (0 : Fin 1) k))
    (fun k => W2 (ix2 k (⟨(i 1).val, (i 1).isLt⟩ : Fin 1))) (B2 (ix2 (0 : Fin 1) (0 : Fin 1)))
    (fun j => S (ix2 (⟨(i 0).val, (i 0).isLt⟩ : Fin 4096) j)) (C (ix2 (⟨(i 0).val, (i 0).isLt⟩ : Fin 4096) (0 : Fin 1)))

theorem energyArr_at (W1 : S512x512.Idx → EReal) (B1 : S1x512.Idx → EReal) (W2 : S512x1.Idx → EReal) (B2 : S1x1.Idx → EReal)
    (S : S4096x512.Idx → EReal) (C : S4096x1.Idx → EReal) (i : S4096x1.Idx) (r : Fin 4096) (q : Fin 1)
    (h0 : (i 0).val = r.val) (h1 : (i 1).val = q.val) :
    energyArr W1 B1 W2 B2 S C i = energy (fun j k => W1 (ix2 j k)) (fun k => B1 (ix2 (0 : Fin 1) k))
      (fun k => W2 (ix2 k q)) (B2 (ix2 (0 : Fin 1) (0 : Fin 1))) (fun j => S (ix2 r j)) (C (ix2 r (0 : Fin 1))) := by
  unfold energyArr
  have e0 : (⟨(i 0).val, (i 0).isLt⟩ : Fin 4096) = r := Fin.ext h0
  have e1 : (⟨(i 1).val, (i 1).isLt⟩ : Fin 1) = q := Fin.ext h1
  rw [e0, e1]

/-- The printed index maps over the grid: the row windows move with the point, the weight and bias windows stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the summed-feature block at point `t` is row `2048 t + p` of the array. -/
theorem blk1_0 (c : Dev nD) (t : Fin cfg1.N) (p : Fin 2048) (j : Fin 512) (r : Fin 4096) (hr : r.val = 2048 * t.val + p.val) :
    (iblk1 V c 0 t : Vec Ideal S2048x512 .f32) (ix2 p j) = (V c main_v11 : S4096x512.Idx → EReal) (ix2 r j) := by
  obtain ⟨e0, e1, -⟩ := idx1 t
  unfold iblk1
  rw [View.read_apply]
  show V c main_v11 _ = V c main_v11 _
  congr 1
  funext a
  apply Fin.ext
  match a with
  | ⟨0, _⟩ => show win1_0.index t 0 * 2048 + 1 * p.val = r.val; rw [e0, hr]; omega
  | ⟨1, _⟩ => show win1_0.index t 1 * 512 + 1 * j.val = j.val; rw [e1]; omega

/-- Row `p` of the count block at point `t` is row `2048 t + p` of the count column. -/
theorem blk1_1 (c : Dev nD) (t : Fin cfg1.N) (p : Fin 2048) (q : Fin 1) (r : Fin 4096) (hr : r.val = 2048 * t.val + p.val) :
    (iblk1 V c 1 t : Vec Ideal S2048x1 .f32) (ix2 p q) = (V c main_v16 : S4096x1.Idx → EReal) (ix2 r q) := by
  obtain ⟨-, -, e0, e1, -⟩ := idx1 t
  unfold iblk1
  rw [View.read_apply]
  show V c main_v16 _ = V c main_v16 _
  congr 1
  funext a
  apply Fin.ext
  match a with
  | ⟨0, _⟩ => show win1_1.index t 0 * 2048 + 1 * p.val = r.val; rw [e0, hr]; omega
  | ⟨1, _⟩ => show win1_1.index t 1 * 1 + 1 * q.val = q.val; rw [e1]; omega

/-- The weight and bias blocks are the whole arrays at every point. -/
theorem blk1_2 (c : Dev nD) (t : Fin cfg1.N) (j : Fin 512) (k : Fin 512) :
    (iblk1 V c 2 t : Vec Ideal S512x512 .bf16) (ix2 j k) = (V c main_v12 : S512x512.Idx → EReal) (ix2 j k) := by
  obtain ⟨-, -, -, -, e0, e1, -⟩ := idx1 t
  unfold iblk1
  rw [View.read_apply]
  show V c main_v12 _ = V c main_v12 _
  congr 1
  funext a
  apply Fin.ext
  match a with
  | ⟨0, _⟩ => show win1_2.index t 0 * 512 + 1 * j.val = j.val; rw [e0]; omega
  | ⟨1, _⟩ => show win1_2.index t 1 * 512 + 1 * k.val = k.val; rw [e1]; omega

theorem blk1_3 (c : Dev nD) (t : Fin cfg1.N) (z : Fin 1) (k : Fin 512) :
    (iblk1 V c 3 t : Vec Ideal S1x512 .f32) (ix2 z k) = (V c main_v14 : S1x512.Idx → EReal) (ix2 z k) := by
  obtain ⟨-, -, -, -, -, -, e0, e1, -⟩ := idx1 t
  unfold iblk1
  rw [View.read_apply]
  show V c main_v14 _ = V c main_v14 _
  congr 1
  funext a
  apply Fin.ext
  match a with
  | ⟨0, _⟩ => show win1_3.index t 0 * 1 + 1 * z.val = z.val; rw [e0]; omega
  | ⟨1, _⟩ => show win1_3.index t 1 * 512 + 1 * k.val = k.val; rw [e1]; omega

theorem blk1_4 (c : Dev nD) (t : Fin cfg1.N) (k : Fin 512) (q : Fin 1) :
    (iblk1 V c 4 t : Vec Ideal S512x1 .bf16) (ix2 k q) = (V c main_v13 : S512x1.Idx → EReal) (ix2 k q) := by
  obtain ⟨-, -, -, -, -, -, -, -, e0, e1, -⟩ := idx1 t
  unfold iblk1
  rw [View.read_apply]
  show V c main_v13 _ = V c main_v13 _
  congr 1
  funext a
  apply Fin.ext
  match a with
  | ⟨0, _⟩ => show win1_4.index t 0 * 512 + 1 * k.val = k.val; rw [e0]; omega
  | ⟨1, _⟩ => show win1_4.index t 1 * 1 + 1 * q.val = q.val; rw [e1]; omega

theorem blk1_5 (c : Dev nD) (t : Fin cfg1.N) (z : Fin 1) (q : Fin 1) :
    (iblk1 V c 5 t : Vec Ideal S1x1 .f32) (ix2 z q) = (V c main_v15 : S1x1.Idx → EReal) (ix2 z q) := by
  obtain ⟨-, -, -, -, -, -, -, -, -, -, e0, e1, -⟩ := idx1 t
  unfold iblk1
  rw [View.read_apply]
  show V c main_v15 _ = V c main_v15 _
  congr 1
  funext a
  apply Fin.ext
  match a with
  | ⟨0, _⟩ => show win1_5.index t 0 * 1 + 1 * z.val = z.val; rw [e0]; omega
  | ⟨1, _⟩ => show win1_5.index t 1 * 1 + 1 * q.val = q.val; rw [e1]; omega

/-- What point `t` writes back is block `t` of the energy array. -/
theorem flushed1 (c : Dev nD) (t : Fin cfg1.N) :
    (dat1 V c).flushed 6 t = ((cfg1.win 6).blk t).view.read (Elt Ideal)
      (energyArr (V c main_v12) (V c main_v14) (V c main_v13) (V c main_v15) (V c main_v11) (V c main_v16)) := by
  show (cfg1.win 6).cut (grid1.coords t) ((dat1 V c).after 6 t) = _
  rw [after1_6]
  unfold out1_6
  rw [View.canon_unit_zero hz]
  simp only [View.ld_unit_zero (S := S2048x1) hz, View.ld_unit_zero (S := S2048x512) hz, View.ld_unit_zero (S := S512x512) hz,
    View.ld_unit_zero (S := S1x512) hz, View.ld_unit_zero (S := S512x1) hz, View.ld_unit_zero (S := S1x1) hz]
  funext y
  obtain ⟨p, q, rfl⟩ : ∃ (p : Fin 2048) (q : Fin 1), y = ix2 p q := ⟨y 0, y 1, eq_ix2 y⟩
  have hN : cfg1.N = 2 := N_1
  have hr : 2048 * t.val + p.val < 4096 := by have := t.isLt; have := p.isLt; omega
  obtain ⟨-, -, -, -, -, -, -, -, -, -, -, -, e0, e1⟩ := idx1 t
  refine (mlp_apply (iblk1 V c 1 t) (iblk1 V c 0 t) (iblk1 V c 2 t) (iblk1 V c 3 t) (iblk1 V c 4 t) (iblk1 V c 5 t) p q).trans ?_
  rw [View.read_apply]
  rw [energyArr_at _ _ _ _ _ _ _ ⟨2048 * t.val + p.val, hr⟩ q
    (by show win1_6.index t 0 * 2048 + 1 * p.val = 2048 * t.val + p.val; rw [e0]; omega)
    (by show win1_6.index t 1 * 1 + 1 * q.val = q.val; rw [e1]; omega)]
  have hW1 : (fun (j k : Fin 512) => (iblk1 V c 2 t : Vec Ideal S512x512 .bf16) (ix2 j k))
      = fun j k => (V c main_v12 : S512x512.Idx → EReal) (ix2 j k) := funext fun j => funext fun k => blk1_2 V c t j k
  have hB1 : (fun (k : Fin 512) => (iblk1 V c 3 t : Vec Ideal S1x512 .f32) (ix2 (0 : Fin 1) k))
      = fun k => (V c main_v14 : S1x512.Idx → EReal) (ix2 (0 : Fin 1) k) := funext fun k => blk1_3 V c t 0 k
  have hW2 : (fun (k : Fin 512) => (iblk1 V c 4 t : Vec Ideal S512x1 .bf16) (ix2 k q))
      = fun k => (V c main_v13 : S512x1.Idx → EReal) (ix2 k q) := funext fun k => blk1_4 V c t k q
  have hS : (fun (j : Fin 512) => (iblk1 V c 0 t : Vec Ideal S2048x512 .f32) (ix2 p j))
      = fun j => (V c main_v11 : S4096x512.Idx → EReal) (ix2 ⟨2048 * t.val + p.val, hr⟩ j) :=
    funext fun j => blk1_0 V c t p j ⟨2048 * t.val + p.val, hr⟩ rfl
  rw [hW1, hB1, hW2, hS, blk1_5 V c t 0 0, blk1_1 V c t p 0 ⟨2048 * t.val + p.val, hr⟩ rfl]
  rfl

theorem mem_blk1 (t : Fin cfg1.N) (i : S4096x1.Idx) :
    i ∈ ((cfg1.win 6).blk t).view.set ↔ ∀ a : Fin 2, win1_6.index t a * S2048x1.size a ≤ (i a).val
      ∧ (i a).val < win1_6.index t a * S2048x1.size a + S2048x1.size a := by
  show i ∈ ((View.whole main_v17).slice (win1_6.rect t)).set ↔ _
  rw [View.set_slice_whole, Rect.mem_set_unit]
  exact Iff.rfl

/-- Graph `r` is in the block of point `r / 2048`. -/
theorem cover1 (i : S4096x1.Idx) :
    ∃ t : Fin cfg1.N, (cfg1.win 6).flush t = true ∧ i ∈ ((cfg1.win 6).blk t).view.set := by
  have hN : cfg1.N = 2 := N_1
  have hi0 : (i 0).val < 4096 := idx2_lt0 i
  have hi1 : (i 1).val < 1 := idx2_lt1 i
  have ht : (i 0).val / 2048 < cfg1.N := by rw [hN]; omega
  obtain ⟨-, -, -, -, -, -, -, -, -, -, -, -, e0, e1⟩ := idx1 ⟨(i 0).val / 2048, ht⟩
  refine ⟨⟨(i 0).val / 2048, ht⟩, flush1_6 _, ?_⟩
  rw [mem_blk1]
  intro a
  match a with
  | ⟨0, _⟩ =>
    show win1_6.index ⟨(i 0).val / 2048, ht⟩ 0 * 2048 ≤ (i 0).val ∧ (i 0).val < win1_6.index ⟨(i 0).val / 2048, ht⟩ 0 * 2048 + 2048
    rw [e0]; show (i 0).val / 2048 * 2048 ≤ (i 0).val ∧ (i 0).val < (i 0).val / 2048 * 2048 + 2048; omega
  | ⟨1, _⟩ =>
    show win1_6.index ⟨(i 0).val / 2048, ht⟩ 1 * 1 ≤ (i 1).val ∧ (i 1).val < win1_6.index ⟨(i 0).val / 2048, ht⟩ 1 * 1 + 1
    rw [e1]; omega

/-- REGION 1's OUTPUT ARRAY after the run is the energy array of what the region finds. -/
theorem final1 (c : Dev nD) :
    (dat1 V c).arrAt 6 cfg1.N
      = energyArr (V c main_v12) (V c main_v14) (V c main_v13) (V c main_v15) (V c main_v11) (V c main_v16) :=
  (dat1 V c).arrAt_eq_of_cover 6 _ (fun t _ => flushed1 V c t) cover1

end Cert.KernelIdeal.Arrays

end
-- ==== Proof.KernelHost.lean ====
/-
  The host stretches of the kernel's program, read back: what each region finds in the buffers the host wrote.

  Before region 0: the atomic numbers clipped into `[0, 99]` (a signed maximum with 0, then a signed minimum with 99)
  and reshaped to a column; the table and the position weights with their format narrowed, which at the ideal
  instance changes nothing.  Between the regions: the features scattered-and-added into per-graph sums, a column of
  ones scattered-and-added into per-graph counts and reshaped to a column, the weights narrowed, the biases reshaped
  to one-row arrays.  No host operation and neither region writes an argument array.
-/
import proofs.«420281_j41360535060872_3_alg».proof.Proof.Gen.KernelIdeal.Frame
import Idealize.ShloMosaic.Lib.StableHlo.Run
import Idealize.ShloMosaic.Lib.Pipeline.Value

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## What region 0 finds -/

theorem V3_table (c : Dev nD) :
    V3 m ρ c main_v1 = truncf .bf16 (m ((c : Thread nD τ).loc main_arg3)) bitsLt_bf16_f32 := by
  show StableHlo.after hostOps0_2 (StableHlo.after hostOps0_1 (StableHlo.after hostOps0 (W0 m ρ c))) (Proc.devRef .tc main_v1) = _
  after_results

theorem V3_posw (c : Dev nD) :
    V3 m ρ c main_v2 = truncf .bf16 (m ((c : Thread nD τ).loc main_arg4)) bitsLt_bf16_f32 := by
  show StableHlo.after hostOps0_2 (StableHlo.after hostOps0_1 (StableHlo.after hostOps0 (W0 m ρ c))) (Proc.devRef .tc main_v2) = _
  after_results

theorem V3_pos (c : Dev nD) : V3 m ρ c main_arg1 = m ((c : Thread nD τ).loc main_arg1) := by
  show StableHlo.after hostOps0_2 (StableHlo.after hostOps0_1 (StableHlo.after hostOps0 (W0 m ρ c))) (Proc.devRef .tc main_arg1) = _
  after_results

/-- The column of index words: the atomic numbers clipped, as a column. -/
theorem V3_atoms (c : Dev nD) :
    V3 m ρ c main_v3 = shapeCast S262144x1
      (minsi (broadcastInDim S262144 ![] bcast_S_S262144 (constantI S_ 32 99#32))
        (maxsi (broadcastInDim S262144 ![] bcast_S_S262144 (constantI S_ 32 0#32)) (m ((c : Thread nD τ).loc main_arg0))))
      shapeCasts_S262144_S262144x1 := by
  show StableHlo.after hostOps0_2 (StableHlo.after hostOps0_1 (StableHlo.after hostOps0 (W0 m ρ c))) (Proc.devRef .tc main_v3) = _
  after_results
  rfl

/-! ## Region 0 leaves the arguments alone -/

theorem W3_arg (c : Dev nD) (b : Ref sig .tc) (hb : b = main_arg2 ∨ b = main_arg5 ∨ b = main_arg6 ∨ b = main_arg7 ∨ b = main_arg8) :
    W3 m ρ c (Proc.devRef .tc b) = m ((c : Thread nD τ).loc b) := by
  rcases hb with rfl | rfl | rfl | rfl | rfl <;>
  · show StableHlo.after hostOps0_2 (StableHlo.after hostOps0_1 (StableHlo.after hostOps0 (W0 m ρ c))) (Proc.devRef .tc _) = _
    after_results

theorem W4_arg2 (c : Dev nD) : W4 m ρ c (Proc.devRef .tc main_arg2) = m ((c : Thread nD τ).loc main_arg2) :=
  (W4_of_ne m ρ c main_arg2 (by decide)).trans (W3_arg m ρ c main_arg2 (by simp))
theorem W4_arg5 (c : Dev nD) : W4 m ρ c (Proc.devRef .tc main_arg5) = m ((c : Thread nD τ).loc main_arg5) :=
  (W4_of_ne m ρ c main_arg5 (by decide)).trans (W3_arg m ρ c main_arg5 (by simp))
theorem W4_arg6 (c : Dev nD) : W4 m ρ c (Proc.devRef .tc main_arg6) = m ((c : Thread nD τ).loc main_arg6) :=
  (W4_of_ne m ρ c main_arg6 (by decide)).trans (W3_arg m ρ c main_arg6 (by simp))
theorem W4_arg7 (c : Dev nD) : W4 m ρ c (Proc.devRef .tc main_arg7) = m ((c : Thread nD τ).loc main_arg7) :=
  (W4_of_ne m ρ c main_arg7 (by decide)).trans (W3_arg m ρ c main_arg7 (by simp))
theorem W4_arg8 (c : Dev nD) : W4 m ρ c (Proc.devRef .tc main_arg8) = m ((c : Thread nD τ).loc main_arg8) :=
  (W4_of_ne m ρ c main_arg8 (by decide)).trans (W3_arg m ρ c main_arg8 (by simp))

/-! ## What region 1 finds -/

/-- The per-graph sums: region 0's output array scattered-and-added by graph id. -/
theorem V5_sums (c : Dev nD) :
    V5 m ρ c main_v11 = Host.scatterAdd scatter_S4096x512_S262144x1_S262144x512_1_0_0_1
      (broadcastInDim S4096x512 ![] bcast_S_S4096x512 (constant S_ .f32 0x00000000#32))
      (broadcastInDim S262144x1 ![0] bcast_S262144_S262144x1_0 (m ((c : Thread nD τ).loc main_arg2)))
      ((dat0 (V3 m ρ) c).arrAt 4 cfg0.N) := by
  show StableHlo.after hostOps1 (W4 m ρ c) (Proc.devRef .tc main_v11) = _
  after_results
  rw [W4_arg2, W4_arr m ρ c 4]

/-- The per-graph counts, as a column. -/
theorem V5_counts (c : Dev nD) :
    V5 m ρ c main_v16 = shapeCast S4096x1 (Host.scatterAdd scatter_S4096_S262144x1_S262144_n_0_0_1
      (broadcastInDim S4096 ![] bcast_S_S4096 (constant S_ .f32 0x00000000#32))
      (broadcastInDim S262144x1 ![0] bcast_S262144_S262144x1_0 (m ((c : Thread nD τ).loc main_arg2)))
      (broadcastInDim S262144 ![] bcast_S_S262144 (constant S_ .f32 0x3F800000#32))) shapeCasts_S4096_S4096x1 := by
  show StableHlo.after hostOps1 (W4 m ρ c) (Proc.devRef .tc main_v16) = _
  after_results
  rw [W4_arg2]
  rfl

theorem V5_w1 (c : Dev nD) :
    V5 m ρ c main_v12 = truncf .bf16 (m ((c : Thread nD τ).loc main_arg5)) bitsLt_bf16_f32 := by
  show StableHlo.after hostOps1 (W4 m ρ c) (Proc.devRef .tc main_v12) = _
  after_results
  rw [W4_arg5]

theorem V5_w2 (c : Dev nD) :
    V5 m ρ c main_v13 = truncf .bf16 (m ((c : Thread nD τ).loc main_arg7)) bitsLt_bf16_f32 := by
  show StableHlo.after hostOps1 (W4 m ρ c) (Proc.devRef .tc main_v13) = _
  after_results
  rw [W4_arg7]

theorem V5_b1 (c : Dev nD) :
    V5 m ρ c main_v14 = shapeCast S1x512 (m ((c : Thread nD τ).loc main_arg6)) shapeCasts_S512_S1x512 := by
  show StableHlo.after hostOps1 (W4 m ρ c) (Proc.devRef .tc main_v14) = _
  after_results
  rw [W4_arg6]
  rfl

theorem V5_b2 (c : Dev nD) :
    V5 m ρ c main_v15 = shapeCast S1x1 (m ((c : Thread nD τ).loc main_arg8)) shapeCasts_S1_S1x1 := by
  show StableHlo.after hostOps1 (W4 m ρ c) (Proc.devRef .tc main_v15) = _
  after_results
  rw [W4_arg8]
  rfl

end Cert.KernelIdeal.HostValue

end
-- ==== Proof.SpecArrays.lean ====
/-
  The two whole-array functions of the arguments both programs compute.

  `featOf`: atom `i`, lane `d` ↦ the table row its atomic number names, at lane `d`, plus the position's image.
  `energyOf`: graph `g` ↦ the energy of the summed features in row `g` over the atom count `C g`.
-/
import proofs.«420281_j41360535060872_3_alg».proof.Proof.Spec
import proofs.«420281_j41360535060872_3_alg».proof.Proof.AtomRange

noncomputable section

open scoped BigOperators

namespace Cert.EnergySpec

open Idealize.ShloMosaic Idealize.ShloMosaic.ValueIdx Cert.AtomRange

/-- Every atom's feature at every lane. -/
def featOf (z : (⟨1, ![262144]⟩ : Shape).Idx → BitVec 32) (pos : (⟨2, ![262144, 3]⟩ : Shape).Idx → EReal)
    (E : (⟨2, ![100, 512]⟩ : Shape).Idx → EReal) (Wp : (⟨2, ![3, 512]⟩ : Shape).Idx → EReal) :
    (⟨2, ![262144, 512]⟩ : Shape).Idx → EReal :=
  fun i => feat (fun k d => E (ix2 k d)) (fun j d => Wp (ix2 j d))
    (rowOf (z (ix1 (⟨(i 0).val, idx2_lt0 i⟩ : Fin 262144))))
    (fun j => pos (ix2 (⟨(i 0).val, idx2_lt0 i⟩ : Fin 262144) j)) ⟨(i 1).val, idx2_lt1 i⟩

/-- Every graph's energy. -/
def energyOf (W1 : (⟨2, ![512, 512]⟩ : Shape).Idx → EReal) (b1 : (⟨1, ![512]⟩ : Shape).Idx → EReal)
    (W2 : (⟨2, ![512, 1]⟩ : Shape).Idx → EReal) (b2 : (⟨1, ![1]⟩ : Shape).Idx → EReal)
    (S : (⟨2, ![4096, 512]⟩ : Shape).Idx → EReal) (C : (⟨1, ![4096]⟩ : Shape).Idx → EReal) :
    (⟨2, ![4096, 1]⟩ : Shape).Idx → EReal :=
  fun i => energy (fun j k => W1 (ix2 j k)) (fun k => b1 (ix1 k))
    (fun k => W2 (ix2 k (⟨(i 1).val, idx2_lt1 i⟩ : Fin 1))) (b2 (ix1 (0 : Fin 1)))
    (fun j => S (ix2 (⟨(i 0).val, idx2_lt0 i⟩ : Fin 4096) j)) (C (ix1 (⟨(i 0).val, idx2_lt0 i⟩ : Fin 4096)))

end Cert.EnergySpec

end
-- ==== Proof.KernelValue.lean ====
/-
  The kernel's program in closed form: after the run the result buffer holds `energyOf` of the per-graph sums of
  `featOf` and of the per-graph counts, all functions of the nine arguments — provided every atomic number names a
  row of the table, so that clipping it changes nothing.

  The pieces: the run with the result named; region 1's output array as the energy array of what it finds; what it
  finds, read off the host stretch between the regions; region 0's output array as the feature array of what IT
  finds; and that, read off the first host stretches.  The reshapes (a vector as a column, a bias as a one-row
  array) and the format narrowings are identities on the values.
-/
import proofs.«420281_j41360535060872_3_alg».proof.Proof.KernelRun
import proofs.«420281_j41360535060872_3_alg».proof.Proof.KernelArrays
import proofs.«420281_j41360535060872_3_alg».proof.Proof.KernelHost
import proofs.«420281_j41360535060872_3_alg».proof.Proof.SpecArrays

set_option maxRecDepth 16384

noncomputable section

open scoped BigOperators

namespace Cert.KernelIdeal.Closed

open Cert.KernelIdeal Cert.KernelIdeal.Gen Cert.KernelIdeal.Arrays Cert.KernelIdeal.HostValue Cert.KernelIdeal.RunValue
open Cert.EnergySpec Cert.AtomRange
open Idealize.ShloMosaic Idealize.ShloMosaic.TcCoe Idealize.SL.Sem Idealize.ShloMosaic.ValueIdx

/-! ## Reshapes read at an index -/

/-- A vector as a column: row `r` of the column is entry `r`. -/
theorem col_apply {α : Type} {n : Nat} (x : (⟨1, ![n]⟩ : Shape).Idx → α)
    (h : (⟨1, ![n]⟩ : Shape).ShapeCasts ⟨2, ![n, 1]⟩) (r : Fin n) (q : Fin 1) :
    shapeCast (⟨2, ![n, 1]⟩ : Shape) x h (ix2 r q) = x (ix1 r) := by
  refine shapeCast_apply x h (ix2 r q) (ix1 r) ?_
  rw [Shape.rowMajor_val_one, Shape.rowMajor_val_two]
  show r.val = r.val * 1 + q.val
  have := q.isLt; omega

/-- A vector as a one-row array: column `k` of the row is entry `k`. -/
theorem row_apply {α : Type} {n : Nat} (x : (⟨1, ![n]⟩ : Shape).Idx → α)
    (h : (⟨1, ![n]⟩ : Shape).ShapeCasts ⟨2, ![1, n]⟩) (z : Fin 1) (k : Fin n) :
    shapeCast (⟨2, ![1, n]⟩ : Shape) x h (ix2 z k) = x (ix1 k) := by
  refine shapeCast_apply x h (ix2 z k) (ix1 k) ?_
  rw [Shape.rowMajor_val_one, Shape.rowMajor_val_two]
  show k.val = z.val * n + k.val
  have := z.isLt
  have hz : z.val = 0 := by omega
  rw [hz]; omega

/-! ## The two arrays in terms of the arguments -/

/-- Clipping an atomic number that names a table row leaves it alone, so the feature array of the clipped column is
    `featOf` of the atomic numbers themselves. -/
theorem featArr_eq (z : S262144.Idx → BitVec 32) (pos : S262144x3.Idx → EReal) (E : S100x512.Idx → EReal)
    (Wp : S3x512.Idx → EReal) (hz : ∀ i : S262144.Idx, InTable (z i)) :
    featArr (truncf (F := Ideal) .bf16 E bitsLt_bf16_f32) (truncf (F := Ideal) .bf16 Wp bitsLt_bf16_f32)
      (shapeCast S262144x1 (minsi (broadcastInDim S262144 ![] bcast_S_S262144 (constantI S_ 32 99#32))
        (maxsi (broadcastInDim S262144 ![] bcast_S_S262144 (constantI S_ 32 0#32)) z)) shapeCasts_S262144_S262144x1) pos
      = featOf z pos E Wp := by
  funext i
  unfold featArr featOf
  rw [col_apply]
  show feat _ _ (rowOf (IntOp.minsi 99#32 (IntOp.maxsi 0#32 (z (ix1 _))))) _ _ = _
  rw [(hz _).clip_eq]
  rfl

/-- The biases as one-row arrays and the counts as a column read back as the vectors they are. -/
theorem energyArr_eq (W1 : S512x512.Idx → EReal) (b1 : S512.Idx → EReal) (W2 : S512x1.Idx → EReal) (b2 : S1.Idx → EReal)
    (S : S4096x512.Idx → EReal) (C : S4096.Idx → EReal) :
    energyArr (truncf (F := Ideal) .bf16 W1 bitsLt_bf16_f32) (shapeCast S1x512 b1 shapeCasts_S512_S1x512)
      (truncf (F := Ideal) .bf16 W2 bitsLt_bf16_f32) (shapeCast S1x1 b2 shapeCasts_S1_S1x1) S
      (shapeCast S4096x1 C shapeCasts_S4096_S4096x1)
      = energyOf W1 b1 W2 b2 S C := by
  funext i
  unfold energyArr energyOf
  have hb1 : (fun k : Fin 512 => shapeCast S1x512 b1 shapeCasts_S512_S1x512 (ix2 (0 : Fin 1) k)) = fun k => b1 (ix1 k) :=
    funext fun k => row_apply b1 _ 0 k
  rw [hb1, row_apply b2 _ 0 0, col_apply C]
  rfl

/-! ## The run -/

variable (m : (ℓ : Loc nD τ sig) → Buf (Elt Ideal) ℓ) (ρ : Dev nD → PrngReg)

/-- The kernel program's result as a function of its arguments. -/
def result (c : Dev nD) : S4096x1.Idx → EReal :=
  energyOf (m ((c : Thread nD τ).loc main_arg5)) (m ((c : Thread nD τ).loc main_arg6)) (m ((c : Thread nD τ).loc main_arg7))
    (m ((c : Thread nD τ).loc main_arg8))
    (Host.scatterAdd (F := Ideal) scatter_S4096x512_S262144x1_S262144x512_1_0_0_1
      (broadcastInDim S4096x512 ![] bcast_S_S4096x512 (constant S_ .f32 0x00000000#32))
      (broadcastInDim S262144x1 ![0] bcast_S262144_S262144x1_0 (m ((c : Thread nD τ).loc main_arg2)))
      (featOf (m ((c : Thread nD τ).loc main_arg0)) (m ((c : Thread nD τ).loc main_arg1)) (m ((c : Thread nD τ).loc main_arg3))
        (m ((c : Thread nD τ).loc main_arg4))))
    (Host.scatterAdd (F := Ideal) scatter_S4096_S262144x1_S262144_n_0_0_1
      (broadcastInDim S4096 ![] bcast_S_S4096 (constant S_ .f32 0x00000000#32))
      (broadcastInDim S262144x1 ![0] bcast_S262144_S262144x1_0 (m ((c : Thread nD τ).loc main_arg2)))
      (broadcastInDim S262144 ![] bcast_S_S262144 (constant S_ .f32 0x3F800000#32)))

/-- The last boundary's contents of the result buffer are `result`, when every atomic number names a table row. -/
theorem W6_eq (c : Dev nD)
    (hz : ∀ i : S262144.Idx, InTable ((m ((c : Thread nD τ).loc main_arg0) : S262144.Idx → BitVec 32) i)) :
    W6 m ρ c (Proc.devRef .tc main_v17) = result m c := by
  have hrow : ∀ r : Fin 262144, InTable ((V3 m ρ c main_v3 : S262144x1.Idx → BitVec 32) (ix2 r (0 : Fin 1))) := by
    intro r
    rw [V3_atoms, col_apply]
    show InTable (IntOp.minsi 99#32 (IntOp.maxsi 0#32 ((m ((c : Thread nD τ).loc main_arg0) : S262144.Idx → BitVec 32) (ix1 r))))
    rw [(hz _).clip_eq]
    exact hz _
  rw [W6_result, final1 (V5 m ρ) c, V5_w1, V5_b1, V5_w2, V5_b2, V5_sums, V5_counts, energyArr_eq,
    final0 (V3 m ρ) c hrow, V3_table, V3_posw, V3_atoms, V3_pos, featArr_eq _ _ _ _ hz]
  rfl

/-- THE KERNEL'S RUN: every weakly fair execution terminates with the result at `result` and the arguments
    unchanged. -/
theorem run
    (hz : ∀ (c : Dev nD) (i : S262144.Idx), InTable ((m ((c : Thread nD τ).loc main_arg0) : S262144.Idx → BitVec 32) i)) :
    θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W6_eq m ρ c (hz c)), (h c).2⟩) (run_named m ρ)

end Cert.KernelIdeal.Closed

end
-- ==== Proof.RefValue.lean ====
/-
  The reference's program in closed form.  Its run ends with the result at the composed term of the arguments; read
  one operation at a time that term is `energyOf` of the per-graph sums of `featOf` and of the per-graph counts.

  The table lookup is a gather whose start index is the atomic number after numpy's wrap-around of negative
  indices; for an atomic number that names a table row neither the wrap-around nor the gather's clamp changes it.
  The tanh-form GELU cubes its argument as `(h · h) · h`, which is the kernel's `h · (h · h)`.
-/
import proofs.«420281_j41360535060872_3_alg».proof.Proof.Gen.ReferenceIdeal.Run
import proofs.«420281_j41360535060872_3_alg».proof.Proof.Gen.ReferenceIdeal.Read
import proofs.«420281_j41360535060872_3_alg».proof.Proof.SpecArrays

noncomputable section

open scoped BigOperators

namespace Cert.ReferenceIdeal.RefValue

open Cert.ReferenceIdeal Cert.ReferenceIdeal.Gen Cert.ReferenceIdeal.Read Cert.EnergySpec Cert.AtomRange
open Idealize.ShloMosaic Idealize.ShloMosaic.ValueIdx

/-- The table lookup at `(i, d)`: the table's entry at the row the start index names — read signed and clamped into
    the table — and at lane `d`. -/
theorem gather_row {α : Type} (x : S100x512.Idx → α) (idx : IVec S262144x1 32) (i : Fin 262144) (d : Fin 512) :
    Host.gather gather_S100x512_S262144x1_S262144x512_1_0_n_n_0_1_1512 x idx (ix2 i d)
      = x (ix2 (rowOf (idx (ix2 i (0 : Fin 1)))) d) := by
  unfold Host.gather
  congr 1
  funext a
  apply Fin.ext
  match a with
  | ⟨0, _⟩ =>
    have hb : (0 : Fin S100x512.rank) ∉ gather_S100x512_S262144x1_S262144x512_1_0_n_n_0_1_1512.operandBatchingDims := by decide
    have hk : (0 : Fin S100x512.rank) ∉ gather_S100x512_S262144x1_S262144x512_1_0_n_n_0_1_1512.sKept := by
      rw [GatherDims.mem_sKept]; decide
    have hm : (0 : Fin S100x512.rank) ∈ gather_S100x512_S262144x1_S262144x512_1_0_n_n_0_1_1512.startIndexMap := by decide
    show gather_S100x512_S262144x1_S262144x512_1_0_n_n_0_1_1512.start (ix2 i d) idx 0
        + gather_S100x512_S262144x1_S262144x512_1_0_n_n_0_1_1512.batchCoord (ix2 i d) 0
        + gather_S100x512_S262144x1_S262144x512_1_0_n_n_0_1_1512.offCoord (ix2 i d) 0 = min (idx (ix2 i (0 : Fin 1))).toInt.toNat 99
    rw [GatherDims.batchCoord_eq_zero _ _ _ hb, GatherDims.offCoord_eq_zero _ _ _ hk]
    simp only [Nat.add_zero]
    unfold GatherDims.start
    rw [dif_pos hm]
    have hsi : gather_S100x512_S262144x1_S262144x512_1_0_n_n_0_1_1512.siIdx (ix2 i d)
        ⟨List.idxOf (0 : Fin S100x512.rank) gather_S100x512_S262144x1_S262144x512_1_0_n_n_0_1_1512.startIndexMap,
          List.idxOf_lt_length_iff.2 hm⟩ = ix2 i (0 : Fin 1) := by
      funext b
      refine Fin.ext ?_
      match b with
      | ⟨0, _⟩ => rfl
      | ⟨1, _⟩ => rfl
    rw [hsi]
    rfl
  | ⟨1, _⟩ =>
    have hb : (1 : Fin S100x512.rank) ∉ gather_S100x512_S262144x1_S262144x512_1_0_n_n_0_1_1512.operandBatchingDims := by decide
    have hm : (1 : Fin S100x512.rank) ∉ gather_S100x512_S262144x1_S262144x512_1_0_n_n_0_1_1512.startIndexMap := by decide
    have hk : (1 : Fin S100x512.rank) ∈ gather_S100x512_S262144x1_S262144x512_1_0_n_n_0_1_1512.sKept := by
      rw [GatherDims.mem_sKept]; decide
    show gather_S100x512_S262144x1_S262144x512_1_0_n_n_0_1_1512.start (ix2 i d) idx 1
        + gather_S100x512_S262144x1_S262144x512_1_0_n_n_0_1_1512.batchCoord (ix2 i d) 1
        + gather_S100x512_S262144x1_S262144x512_1_0_n_n_0_1_1512.offCoord (ix2 i d) 1 = d.val
    rw [GatherDims.batchCoord_eq_zero _ _ _ hb]
    simp only [Nat.add_zero]
    unfold GatherDims.start GatherDims.offCoord
    rw [dif_neg hm, dif_pos hk, Nat.zero_add]
    rfl

/-- The reference's feature array is `featOf` of its arguments, when every atomic number names a table row. -/
theorem ref_feat (x0 : (⟨S262144, .i32⟩ : BufTy).Contents (Elt Ideal)) (x1 : (⟨S262144x3, .f32⟩ : BufTy).Contents (Elt Ideal))
    (x3 : (⟨S100x512, .f32⟩ : BufTy).Contents (Elt Ideal)) (x4 : (⟨S3x512, .f32⟩ : BufTy).Contents (Elt Ideal))
    (hz : ∀ i : S262144.Idx, InTable (x0 i)) :
    val_main_v8 (F := Ideal) x0 x1 x3 x4 = featOf x0 x1 x3 x4 := by
  funext i
  obtain ⟨r, d, rfl⟩ : ∃ (r : Fin 262144) (d : Fin 512), i = ix2 r d := ⟨i 0, i 1, eq_ix2 i⟩
  have el : ∀ k : Fin 3, lidx_main_v7 (ix2 r d) k = ix2 r k := fun k => funext fun a => Fin.ext (by
    match a with | ⟨0, _⟩ => rfl | ⟨1, _⟩ => rfl)
  have er : ∀ k : Fin 3, ridx_main_v7 (ix2 r d) k = ix2 k d := fun k => funext fun a => Fin.ext (by
    match a with | ⟨0, _⟩ => rfl | ⟨1, _⟩ => rfl)
  have e5 : idx_main_v5 (ix2 r (0 : Fin 1)) = ix1 r := funext fun a => Fin.ext (by match a with | ⟨0, _⟩ => rfl)
  rw [val_main_v8_apply, val_main_v7_apply]
  unfold val_main_v6
  rw [gather_row, val_main_v5_apply, e5, val_main_v4_apply, val_main_v1_apply, val_main_v3_apply, val_main_v0_apply,
    val_main_v2_apply, val_main_c_apply, val_main_c_0_apply]
  simp only [el, er]
  rw [(hz _).wrap_eq]
  rfl

/-- The reference's result is `energyOf` of the weights, the biases, its per-graph sums and its per-graph counts. -/
theorem ref_energy (x0 : (⟨S262144, .i32⟩ : BufTy).Contents (Elt Ideal)) (x1 : (⟨S262144x3, .f32⟩ : BufTy).Contents (Elt Ideal))
    (x2 : (⟨S262144, .i32⟩ : BufTy).Contents (Elt Ideal)) (x3 : (⟨S100x512, .f32⟩ : BufTy).Contents (Elt Ideal))
    (x4 : (⟨S3x512, .f32⟩ : BufTy).Contents (Elt Ideal)) (x5 : (⟨S512x512, .f32⟩ : BufTy).Contents (Elt Ideal))
    (x6 : (⟨S512, .f32⟩ : BufTy).Contents (Elt Ideal)) (x7 : (⟨S512x1, .f32⟩ : BufTy).Contents (Elt Ideal))
    (x8 : (⟨S1, .f32⟩ : BufTy).Contents (Elt Ideal)) :
    val_main_v41 (F := Ideal) x0 x1 x2 x3 x4 x5 x6 x7 x8
      = energyOf x5 x6 x7 x8 (val_main_v11 (F := Ideal) x0 x1 x2 x3 x4) (val_main_v15 (F := Ideal) x2) := by
  funext i
  obtain ⟨r, q, rfl⟩ : ∃ (r : Fin 4096) (q : Fin 1), i = ix2 r q := ⟨i 0, i 1, eq_ix2 i⟩
  have e38l : ∀ k : Fin 512, lidx_main_v38 (ix2 r q) k = ix2 r k := fun k => funext fun a => Fin.ext (by
    match a with | ⟨0, _⟩ => rfl | ⟨1, _⟩ => rfl)
  have e38r : ∀ k : Fin 512, ridx_main_v38 (ix2 r q) k = ix2 k q := fun k => funext fun a => Fin.ext (by
    match a with | ⟨0, _⟩ => rfl | ⟨1, _⟩ => rfl)
  have e21l : ∀ k j : Fin 512, lidx_main_v21 (ix2 r k) j = ix2 r j := fun k j => funext fun a => Fin.ext (by
    match a with | ⟨0, _⟩ => rfl | ⟨1, _⟩ => rfl)
  have e21r : ∀ k j : Fin 512, ridx_main_v21 (ix2 r k) j = ix2 j k := fun k j => funext fun a => Fin.ext (by
    match a with | ⟨0, _⟩ => rfl | ⟨1, _⟩ => rfl)
  have e23 : ∀ k : Fin 512, idx_main_v22 (idx_main_v23 (ix2 r k)) = ix1 k := fun k => funext fun a => Fin.ext (by
    match a with | ⟨0, _⟩ => rfl)
  have e19 : ∀ j : Fin 512, idx_main_v18 (idx_main_v19 (ix2 r j)) = ix1 r := fun j => funext fun a => Fin.ext (by
    match a with | ⟨0, _⟩ => rfl)
  have e40 : idx_main_v39 (idx_main_v40 (ix2 r q)) = ix1 (0 : Fin 1) := funext fun a => Fin.ext (by
    match a with | ⟨0, _⟩ => rfl)
  rw [val_main_v41_apply, val_main_v38_apply, val_main_v40_apply, val_main_v39_apply, e40]
  unfold energyOf energy
  show (∑ k, _ * _) + _ = (∑ k, _ * _) + _
  refine congrArg₂ (· + ·) (Finset.sum_congr rfl fun k _ => ?_) rfl
  rw [e38l, e38r]
  refine congrArg₂ (· * ·) ?_ rfl
  rw [val_main_v37_apply, val_main_v36_apply, val_main_v35_apply, val_main_cst_7_apply, val_main_v34_apply,
    val_main_v33_apply, val_main_cst_6_apply, val_main_v32_apply, val_main_v31_apply, val_main_v30_apply,
    val_main_cst_5_apply, val_main_v29_apply, val_main_v28_apply, val_main_v27_apply, val_main_cst_4_apply,
    val_main_v26_apply, val_main_v25_apply]
  simp only [Ideal.mulf_def, Ideal.addf_def, Ideal.hostUnary_tanh_def, Ideal.ofBits_def]
  rw [gelu_comm]
  refine congrArg gelu ?_
  rw [val_main_v24_apply, val_main_v21_apply, val_main_v23_apply, val_main_v22_apply, e23]
  show (∑ j, _ * _) + _ = (∑ j, _ * _) + _
  refine congrArg₂ (· + ·) (Finset.sum_congr rfl fun j _ => ?_) rfl
  rw [e21l, e21r, val_main_v20_apply, val_main_v19_apply, val_main_v18_apply, e19, val_main_v17_apply,
    val_main_v16_apply, val_main_cst_3_apply]
  rfl

end Cert.ReferenceIdeal.RefValue

end
-- ==== Proof.lean ====
/-
  The kernel computes, for 4096 graphs of 262144 atoms in all, a per-graph energy: per-atom features (a table row chosen
  by the atomic number, plus a linear image of the position) are summed per graph, divided by the atom count (at least
  one), and passed through Linear → GELU (tanh form) → Linear.  The Pallas program does the feature pass and the
  final network in two kernel regions, with the per-graph sums in between on the host; the reference does all of it on
  the host.  At the ideal instance — exact extended reals, format changes the identity — the two are one function of
  the arguments:

  * the kernel's table lookup is a one-hot row times the table, which is the selected row (zero times anything is
    zero, no finiteness needed); the reference's is a gather;
  * the kernel clips the atomic number into `[0, 99]`, the reference wraps a negative one around and lets the gather
    clamp it: the three agree on an atomic number in `[0, 100)`, which is what the precondition's last conjunct says
    of every atom (and the only thing taken from the precondition);
  * both scatter-and-add the same features by the same graph ids, and the same ones for the counts;
  * the network is the same sums and the same GELU, the cube written `h · (h · h)` on one side and `(h · h) · h` on the
    other; the kernel handles 2048 graphs per grid point, the reference all 4096 at once.

  Frames: the two Pallas programs' are the generated frame certificates; the reference's is its run with the result
  dropped.  The ideal pass rewrote nothing, so `preserves` is trivial.
-/
import proofs.«420281_j41360535060872_3_alg».proof.Defs
import proofs.«420281_j41360535060872_3_alg».proof.Proof.Gen.Kernel
import proofs.«420281_j41360535060872_3_alg».proof.Proof.Gen.Kernel.Skeleton
import proofs.«420281_j41360535060872_3_alg».proof.Proof.Gen.Kernel.Launch
import proofs.«420281_j41360535060872_3_alg».proof.Proof.Gen.Kernel.Points
import proofs.«420281_j41360535060872_3_alg».proof.Proof.Gen.Kernel.Frame
import proofs.«420281_j41360535060872_3_alg».proof.Proof.Gen.KernelIdeal
import proofs.«420281_j41360535060872_3_alg».proof.Proof.Gen.KernelIdeal.Skeleton
import proofs.«420281_j41360535060872_3_alg».proof.Proof.Gen.KernelIdeal.Launch
import proofs.«420281_j41360535060872_3_alg».proof.Proof.Gen.KernelIdeal.Points
import proofs.«420281_j41360535060872_3_alg».proof.Proof.Gen.KernelIdeal.Frame
import proofs.«420281_j41360535060872_3_alg».proof.Proof.Gen.ReferenceIdeal
import proofs.«420281_j41360535060872_3_alg».proof.Proof.Gen.Pre_finite_inputs
import proofs.«420281_j41360535060872_3_alg».proof.Proof.KernelValue
import proofs.«420281_j41360535060872_3_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `energyOf` of the same sums and counts of the same arguments. -/
theorem algebraic : Cert.algebraic_KernelIdeal_ReferenceIdeal := by
  intro m ρ m' ρ' hpre hagree
  have hz : ∀ (c : Dev Cert.KernelIdeal.nD) (i : Cert.KernelIdeal.S262144.Idx),
      Cert.AtomRange.InTable ((m ((c.tc : Thread Cert.KernelIdeal.nD Cert.KernelIdeal.τ).loc Cert.KernelIdeal.main_arg0)
        : Cert.KernelIdeal.S262144.Idx → BitVec 32) i) :=
    fun c i => Cert.AtomRange.inTable_of_pre _ _ _ _ _ _ _ _ _ (hpre c) i
  refine ⟨fun c => Cert.KernelIdeal.Closed.result m c, Cert.KernelIdeal.Closed.run m ρ hz, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v41_eq, Cert.ReferenceIdeal.RefValue.ref_energy, h0, h1, h2, h3, h4, h5, h6, h7, h8]
  unfold Cert.ReferenceIdeal.Read.val_main_v11
  rw [Cert.ReferenceIdeal.RefValue.ref_feat _ _ _ _ (hz c)]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
